-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777217x1 : Shape := ⟨2, ![16777217, 1]⟩
abbrev S16777215x1 : Shape := ⟨2, ![16777215, 1]⟩
abbrev S2x1 : Shape := ⟨2, ![2, 1]⟩
abbrev S16777216x2 : Shape := ⟨2, ![16777216, 2]⟩
abbrev S16777215 : Shape := ⟨1, ![16777215]⟩
abbrev S2 : Shape := ⟨1, ![2]⟩
abbrev S_ : Shape := ⟨0, ![]⟩

class Facts : Prop where
  bcast_S_S16777217x1 : S_.BroadcastsInDim S16777217x1 (![] : Fin 0 → Fin S16777217x1.rank)
  reducesTo_S16777217x1_S_d0_1 : S16777217x1.ReducesTo [0, 1] S_
  h_S_ : 0 < S_.numel
  bcast_S_S16777215x1 : S_.BroadcastsInDim S16777215x1 (![] : Fin 0 → Fin S16777215x1.rank)
  reducesTo_S16777215x1_S_d0_1 : S16777215x1.ReducesTo [0, 1] S_
  bcast_S_S2x1 : S_.BroadcastsInDim S2x1 (![] : Fin 0 → Fin S2x1.rank)
  reducesTo_S2x1_S_d0_1 : S2x1.ReducesTo [0, 1] S_
  bcast_S_S16777216x2 : S_.BroadcastsInDim S16777216x2 (![] : Fin 0 → Fin S16777216x2.rank)
  reducesTo_S16777216x2_S_d0_1 : S16777216x2.ReducesTo [0, 1] S_

variable [Facts]

def fn_part1 {F : FTy → Type} [FloatOps F] (main_arg3 : IVec S16777216x2 32) (main_v13 : IVec S_ 1) (main_v15 : IVec S16777216x2 1) (main_c_5 : IVec S_ 32) : IVec S_ 1 :=
  let main_v16 : IVec S16777216x2 32 := broadcastInDim S16777216x2 ![] bcast_S_S16777216x2 main_c_5
  let main_v17 : IVec S16777216x2 1 := cmpi .slt main_arg3 main_v16
  let main_v18 : IVec S16777216x2 1 := andi main_v15 main_v17
  let main_c_6 : IVec S_ 1 := constantI S_ 1 1#1
  let main_v19 : IVec S_ 1 := (fun x v => Host.reduce IntOp.andi x v reducesTo_S16777216x2_S_d0_1 h_S_) main_v18 main_c_6
  let main_v20 : IVec S_ 1 := andi main_v13 main_v19
  main_v20

def fn {F : FTy → Type} [FloatOps F] (main_arg0 : FVec F S16777217x1 .f32) (main_arg1 : FVec F S16777215x1 .f32) (main_arg2 : FVec F S2x1 .f32) (main_arg3 : IVec S16777216x2 32) (main_arg4 : IVec S16777215 32) (main_arg5 : IVec S2 32) : IVec S_ 1 :=
  let main_v0 : FVec F S16777217x1 .f32 := Host.absf main_arg0
  let main_cst : FVec F S_ .f32 := constant S_ .f32 0x7F800000#32
  let main_v1 : FVec F S16777217x1 .f32 := broadcastInDim S16777217x1 ![] bcast_S_S16777217x1 main_cst
  let main_v2 : IVec S16777217x1 1 := cmpf .olt main_v0 main_v1
  let main_c : IVec S_ 1 := constantI S_ 1 1#1
  let main_v3 : IVec S_ 1 := (fun x v => Host.reduce IntOp.andi x v reducesTo_S16777217x1_S_d0_1 h_S_) main_v2 main_c
  let main_v4 : FVec F S16777215x1 .f32 := Host.absf main_arg1
  let main_cst_0 : FVec F S_ .f32 := constant S_ .f32 0x7F800000#32
  let main_v5 : FVec F S16777215x1 .f32 := broadcastInDim S16777215x1 ![] bcast_S_S16777215x1 main_cst_0
  let main_v6 : IVec S16777215x1 1 := cmpf .olt main_v4 main_v5
  let main_c_1 : IVec S_ 1 := constantI S_ 1 1#1
  let main_v7 : IVec S_ 1 := (fun x v => Host.reduce IntOp.andi x v reducesTo_S16777215x1_S_d0_1 h_S_) main_v6 main_c_1
  let main_v8 : IVec S_ 1 := andi main_v3 main_v7
  let main_v9 : FVec F S2x1 .f32 := Host.absf main_arg2
  let main_cst_2 : FVec F S_ .f32 := constant S_ .f32 0x7F800000#32
  let main_v10 : FVec F S2x1 .f32 := broadcastInDim S2x1 ![] bcast_S_S2x1 main_cst_2
  let main_v11 : IVec S2x1 1 := cmpf .olt main_v9 main_v10
  let main_c_3 : IVec S_ 1 := constantI S_ 1 1#1
  let main_v12 : IVec S_ 1 := (fun x v => Host.reduce IntOp.andi x v reducesTo_S2x1_S_d0_1 h_S_) main_v11 main_c_3
  let main_v13 : IVec S_ 1 := andi main_v8 main_v12
  let main_c_4 : IVec S_ 32 := constantI S_ 32 4278190079#32
  let main_v14 : IVec S16777216x2 32 := broadcastInDim S16777216x2 ![] bcast_S_S16777216x2 main_c_4
  let main_v15 : IVec S16777216x2 1 := cmpi .sge main_arg3 main_v14
  let main_c_5 : IVec S_ 32 := constantI S_ 32 16777217#32
  fn_part1 (F := F) main_arg3 main_v13 main_v15 main_c_5
-- ==== Kernel.lean ====
abbrev S16777217x1 : Shape := ⟨2, ![16777217, 1]⟩
abbrev S16777215x1 : Shape := ⟨2, ![16777215, 1]⟩
abbrev S2x1 : Shape := ⟨2, ![2, 1]⟩
abbrev S16777216x2 : Shape := ⟨2, ![16777216, 2]⟩
abbrev S16777215 : Shape := ⟨1, ![16777215]⟩
abbrev S2 : Shape := ⟨1, ![2]⟩
abbrev S_ : Shape := ⟨0, ![]⟩
abbrev S16777216x1 : Shape := ⟨2, ![16777216, 1]⟩
abbrev S16777216 : Shape := ⟨1, ![16777216]⟩
abbrev S16777217 : Shape := ⟨1, ![16777217]⟩
abbrev S1 : Shape := ⟨1, ![1]⟩
abbrev S1x1 : Shape := ⟨2, ![1, 1]⟩
abbrev S131072x128 : Shape := ⟨2, ![131072, 128]⟩
abbrev S2048x128 : Shape := ⟨2, ![2048, 128]⟩

abbrev nBuf : Space → Nat
  | .hbm => 132
  | .vmem => 14
  | .smem => 0
  | _ => 0

abbrev hbmTy0_0 (i : Nat) : BufTy := match i % 128 with
  | 0 => ⟨S16777217x1, .f32⟩
  | 1 => ⟨S16777215x1, .f32⟩
  | 2 => ⟨S2x1, .f32⟩
  | 3 => ⟨S16777216x2, .i32⟩
  | 4 => ⟨S16777215, .i32⟩
  | 5 => ⟨S2, .i32⟩
  | 6 => ⟨S_, .f32⟩
  | 7 => ⟨S16777217x1, .f32⟩
  | 8 => ⟨S_, .i32⟩
  | 9 => ⟨S16777215, .i32⟩
  | 10 => ⟨S16777215, .i1⟩
  | 11 => ⟨S_, .i32⟩
  | 12 => ⟨S16777215, .i32⟩
  | 13 => ⟨S16777215, .i32⟩
  | 14 => ⟨S16777215, .i32⟩
  | 15 => ⟨S16777215x1, .i32⟩
  | 16 => ⟨S16777217x1, .f32⟩
  | 17 => ⟨S_, .i32⟩
  | 18 => ⟨S2, .i32⟩
  | 19 => ⟨S2, .i1⟩
  | 20 => ⟨S_, .i32⟩
  | 21 => ⟨S2, .i32⟩
  | 22 => ⟨S2, .i32⟩
  | 23 => ⟨S2, .i32⟩
  | 24 => ⟨S2x1, .i32⟩
  | 25 => ⟨S16777217x1, .f32⟩
  | 26 => ⟨S16777216x1, .i32⟩
  | 27 => ⟨S16777216, .i32⟩
  | 28 => ⟨S16777216x1, .i32⟩
  | 29 => ⟨S16777216, .i32⟩
  | 30 => ⟨S16777217, .f32⟩
  | 31 => ⟨S_, .i32⟩
  | 32 => ⟨S16777216, .i32⟩
  | 33 => ⟨S16777216, .i1⟩
  | 34 => ⟨S_, .i32⟩
  | 35 => ⟨S16777216, .i32⟩
  | 36 => ⟨S16777216, .i32⟩
  | 37 => ⟨S16777216, .i32⟩
  | 38 => ⟨S16777216x1, .i32⟩
  | 39 => ⟨S1, .i32⟩
  | 40 => ⟨S_, .i32⟩
  | 41 => ⟨S16777216x1, .i32⟩
  | 42 => ⟨S16777216x1, .i1⟩
  | 43 => ⟨S1x1, .i32⟩
  | 44 => ⟨S16777216x1, .i32⟩
  | 45 => ⟨S16777216x1, .i1⟩
  | 46 => ⟨S16777216x1, .i1⟩
  | 47 => ⟨S_, .i1⟩
  | 48 => ⟨S16777216, .i1⟩
  | 49 => ⟨S16777216, .f32⟩
  | 50 => ⟨S_, .f32⟩
  | 51 => ⟨S16777216, .f32⟩
  | 52 => ⟨S16777216, .f32⟩
  | 53 => ⟨S16777217, .f32⟩
  | 54 => ⟨S_, .i32⟩
  | 55 => ⟨S16777216, .i32⟩
  | 56 => ⟨S16777216, .i1⟩
  | 57 => ⟨S_, .i32⟩
  | 58 => ⟨S16777216, .i32⟩
  | 59 => ⟨S16777216, .i32⟩
  | 60 => ⟨S16777216, .i32⟩
  | 61 => ⟨S16777216x1, .i32⟩
  | 62 => ⟨S1, .i32⟩
  | 63 => ⟨S_, .i32⟩
  | 64 => ⟨S16777216x1, .i32⟩
  | 65 => ⟨S16777216x1, .i1⟩
  | 66 => ⟨S1x1, .i32⟩
  | 67 => ⟨S16777216x1, .i32⟩
  | 68 => ⟨S16777216x1, .i1⟩
  | 69 => ⟨S16777216x1, .i1⟩
  | 70 => ⟨S_, .i1⟩
  | 71 => ⟨S16777216, .i1⟩
  | 72 => ⟨S16777216, .f32⟩
  | 73 => ⟨S_, .f32⟩
  | 74 => ⟨S16777216, .f32⟩
  | 75 => ⟨S16777216, .f32⟩
  | 76 => ⟨S16777217, .f32⟩
  | 77 => ⟨S_, .i32⟩
  | 78 => ⟨S16777216, .i32⟩
  | 79 => ⟨S16777216, .i1⟩
  | 80 => ⟨S_, .i32⟩
  | 81 => ⟨S16777216, .i32⟩
  | 82 => ⟨S16777216, .i32⟩
  | 83 => ⟨S16777216, .i32⟩
  | 84 => ⟨S16777216x1, .i32⟩
  | 85 => ⟨S1, .i32⟩
  | 86 => ⟨S_, .i32⟩
  | 87 => ⟨S16777216x1, .i32⟩
  | 88 => ⟨S16777216x1, .i1⟩
  | 89 => ⟨S1x1, .i32⟩
  | 90 => ⟨S16777216x1, .i32⟩
  | 91 => ⟨S16777216x1, .i1⟩
  | 92 => ⟨S16777216x1, .i1⟩
  | 93 => ⟨S_, .i1⟩
  | 94 => ⟨S16777216, .i1⟩
  | 95 => ⟨S16777216, .f32⟩
  | 96 => ⟨S_, .f32⟩
  | 97 => ⟨S16777216, .f32⟩
  | 98 => ⟨S16777216, .f32⟩
  | 99 => ⟨S16777217, .f32⟩
  | 100 => ⟨S_, .i32⟩
  | 101 => ⟨S16777216, .i32⟩
  | 102 => ⟨S16777216, .i1⟩
  | 103 => ⟨S_, .i32⟩
  | 104 => ⟨S16777216, .i32⟩
  | 105 => ⟨S16777216, .i32⟩
  | 106 => ⟨S16777216, .i32⟩
  | 107 => ⟨S16777216x1, .i32⟩
  | 108 => ⟨S1, .i32⟩
  | 109 => ⟨S_, .i32⟩
  | 110 => ⟨S16777216x1, .i32⟩
  | 111 => ⟨S16777216x1, .i1⟩
  | 112 => ⟨S1x1, .i32⟩
  | 113 => ⟨S16777216x1, .i32⟩
  | 114 => ⟨S16777216x1, .i1⟩
  | 115 => ⟨S16777216x1, .i1⟩
  | 116 => ⟨S_, .i1⟩
  | 117 => ⟨S16777216, .i1⟩
  | 118 => ⟨S16777216, .f32⟩
  | 119 => ⟨S_, .f32⟩
  | 120 => ⟨S16777216, .f32⟩
  | 121 => ⟨S16777216, .f32⟩
  | 122 => ⟨S131072x128, .f32⟩
  | 123 => ⟨S131072x128, .f32⟩
  | 124 => ⟨S131072x128, .f32⟩
  | 125 => ⟨S131072x128, .f32⟩
  | 126 => ⟨S131072x128, .f32⟩
  | 127 => ⟨S131072x128, .f32⟩
  | _ => ⟨S16777217x1, .f32⟩

abbrev hbmTy0_1 (i : Nat) : BufTy := match i % 128 with
  | 0 => ⟨S131072x128, .f32⟩
  | 1 => ⟨S16777216, .f32⟩
  | 2 => ⟨S16777216x1, .f32⟩
  | 3 => ⟨S16777216x1, .f32⟩
  | _ => ⟨S16777217x1, .f32⟩

abbrev hbmTy (i : Nat) : BufTy := match i / 128 with
  | 0 => hbmTy0_0 i
  | 1 => hbmTy0_1 i
  | _ => ⟨S16777217x1, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S16777217x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_cst : Ref sig .tc := ⟨.hbm, 50, rfl⟩
abbrev main_call0_v14 : Ref sig .tc := ⟨.hbm, 51, rfl⟩
abbrev main_v20 : Ref sig .tc := ⟨.hbm, 52, rfl⟩
abbrev main_v21 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v22 : Ref sig .tc := ⟨.hbm, 75, rfl⟩
abbrev main_v23 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v24 : Ref sig .tc := ⟨.hbm, 98, rfl⟩
abbrev main_v25 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31_0 : Ref sig .tc := ⟨.hbm, 126, rfl⟩
abbrev main_v31_1 : Ref sig .tc := ⟨.hbm, 127, rfl⟩
abbrev main_v31_2 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16777217x1 : S_.BroadcastsInDim S16777217x1 (![] : Fin 0 → Fin S16777217x1.rank)
  bcast_S_S16777215 : S_.BroadcastsInDim S16777215 (![] : Fin 0 → Fin S16777215.rank)
  bcast_S16777215_S16777215x1_0 : S16777215.BroadcastsInDim S16777215x1 (![0] : Fin 1 → Fin S16777215x1.rank)
  bcast_S_S2 : S_.BroadcastsInDim S2 (![] : Fin 0 → Fin S2.rank)
  bcast_S2_S2x1_0 : S2.BroadcastsInDim S2x1 (![0] : Fin 1 → Fin S2x1.rank)
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  shapeCasts_S16777217x1_S16777217 : S16777217x1.ShapeCasts S16777217
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  shapeCasts_S16777216_S131072x128 : S16777216.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S131072x128_S16777216 : S131072x128.ShapeCasts S16777216
  shapeCasts_S131072x128_S16777216x1 : S131072x128.ShapeCasts S16777216x1
  scatter_S16777217x1_S16777215x1_S16777215x1_1_0_0_1_wf : ScatterDims.WF S16777217x1 S16777215x1 S16777215x1 [1] [0] [0] 1
  scatter_S16777217x1_S2x1_S2x1_1_0_0_1_wf : ScatterDims.WF S16777217x1 S2x1 S2x1 [1] [0] [0] 1
  gather_S16777217_S16777216x1_S16777216_n_0_n_n_0_1_1_wf : GatherDims.WF S16777217 S16777216x1 S16777216 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)

variable [Facts₀]

def scatter_S16777217x1_S16777215x1_S16777215x1_1_0_0_1 : ScatterDims S16777217x1 S16777215x1 S16777215x1 where
  updateWindowDims := [1]
  insertedWindowDims := [0]
  scatterDimsToOperandDims := [0]
  indexVectorDim := 1
  wf := scatter_S16777217x1_S16777215x1_S16777215x1_1_0_0_1_wf
def scatter_S16777217x1_S2x1_S2x1_1_0_0_1 : ScatterDims S16777217x1 S2x1 S2x1 where
  updateWindowDims := [1]
  insertedWindowDims := [0]
  scatterDimsToOperandDims := [0]
  indexVectorDim := 1
  wf := scatter_S16777217x1_S2x1_S2x1_1_0_0_1_wf
def gather_S16777217_S16777216x1_S16777216_n_0_n_n_0_1_1 : GatherDims S16777217 S16777216x1 S16777216 where
  offsetDims := []
  collapsedSliceDims := [0]
  operandBatchingDims := []
  startIndicesBatchingDims := []
  startIndexMap := [0]
  indexVectorDim := 1
  sliceSizes := ![1]
  wf := gather_S16777217_S16777216x1_S16777216_n_0_n_n_0_1_1_wf

abbrev win0_0 : Pipeline.Window sig grid0 :=
  Pipeline.Window.ofSpec (Memref.whole main_v27) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_2) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16777217x1 : Shape := ⟨2, ![16777217, 1]⟩
abbrev S16777215x1 : Shape := ⟨2, ![16777215, 1]⟩
abbrev S2x1 : Shape := ⟨2, ![2, 1]⟩
abbrev S16777216x2 : Shape := ⟨2, ![16777216, 2]⟩
abbrev S16777215 : Shape := ⟨1, ![16777215]⟩
abbrev S2 : Shape := ⟨1, ![2]⟩
abbrev S_ : Shape := ⟨0, ![]⟩
abbrev S16777216x1 : Shape := ⟨2, ![16777216, 1]⟩
abbrev S16777216 : Shape := ⟨1, ![16777216]⟩

abbrev nBuf : Space → Nat
  | .hbm => 111
  | .vmem => 0
  | .smem => 0
  | _ => 0

abbrev bufTy : (tb : Table) → Fin (tcTables nBuf tb) → BufTy
  | .hbm, ⟨0, _⟩ => ⟨S16777217x1, .f32⟩
  | .hbm, ⟨1, _⟩ => ⟨S16777215x1, .f32⟩
  | .hbm, ⟨2, _⟩ => ⟨S2x1, .f32⟩
  | .hbm, ⟨3, _⟩ => ⟨S16777216x2, .i32⟩
  | .hbm, ⟨4, _⟩ => ⟨S16777215, .i32⟩
  | .hbm, ⟨5, _⟩ => ⟨S2, .i32⟩
  | .hbm, ⟨6, _⟩ => ⟨S_, .f32⟩
  | .hbm, ⟨7, _⟩ => ⟨S16777217x1, .f32⟩
  | .hbm, ⟨8, _⟩ => ⟨S_, .i32⟩
  | .hbm, ⟨9, _⟩ => ⟨S16777215, .i32⟩
  | .hbm, ⟨10, _⟩ => ⟨S16777215, .i1⟩
  | .hbm, ⟨11, _⟩ => ⟨S_, .i32⟩
  | .hbm, ⟨12, _⟩ => ⟨S16777215, .i32⟩
  | .hbm, ⟨13, _⟩ => ⟨S16777215, .i32⟩
  | .hbm, ⟨14, _⟩ => ⟨S16777215, .i32⟩
  | .hbm, ⟨15, _⟩ => ⟨S16777215x1, .i32⟩
  | .hbm, ⟨16, _⟩ => ⟨S16777217x1, .f32⟩
  | .hbm, ⟨17, _⟩ => ⟨S_, .i32⟩
  | .hbm, ⟨18, _⟩ => ⟨S2, .i32⟩
  | .hbm, ⟨19, _⟩ => ⟨S2, .i1⟩
  | .hbm, ⟨20, _⟩ => ⟨S_, .i32⟩
  | .hbm, ⟨21, _⟩ => ⟨S2, .i32⟩
  | .hbm, ⟨22, _⟩ => ⟨S2, .i32⟩
  | .hbm, ⟨23, _⟩ => ⟨S2, .i32⟩
  | .hbm, ⟨24, _⟩ => ⟨S2x1, .i32⟩
  | .hbm, ⟨25, _⟩ => ⟨S16777217x1, .f32⟩
  | .hbm, ⟨26, _⟩ => ⟨S16777216x1, .i32⟩
  | .hbm, ⟨27, _⟩ => ⟨S16777216, .i32⟩
  | .hbm, ⟨28, _⟩ => ⟨S_, .i32⟩
  | .hbm, ⟨29, _⟩ => ⟨S16777216, .i32⟩
  | .hbm, ⟨30, _⟩ => ⟨S16777216, .i1⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S16777216, .i32⟩
  | .hbm, ⟨35, _⟩ => ⟨S_, .i32⟩
  | .hbm, ⟨36, _⟩ => ⟨S16777216, .i32⟩
  | .hbm, ⟨37, _⟩ => ⟨S16777216, .i32⟩
  | .hbm, ⟨38, _⟩ => ⟨S16777216x1, .i32⟩
  | .hbm, ⟨39, _⟩ => ⟨S16777216x1, .i32⟩
  | .hbm, ⟨40, _⟩ => ⟨S16777216x2, .i32⟩
  | .hbm, ⟨41, _⟩ => ⟨S16777216, .f32⟩
  | .hbm, ⟨42, _⟩ => ⟨S16777216x1, .i32⟩
  | .hbm, ⟨43, _⟩ => ⟨S16777216, .i32⟩
  | .hbm, ⟨44, _⟩ => ⟨S_, .i32⟩
  | .hbm, ⟨45, _⟩ => ⟨S16777216, .i32⟩
  | .hbm, ⟨46, _⟩ => ⟨S16777216, .i1⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S16777216, .i32⟩
  | .hbm, ⟨51, _⟩ => ⟨S_, .i32⟩
  | .hbm, ⟨52, _⟩ => ⟨S16777216, .i32⟩
  | .hbm, ⟨53, _⟩ => ⟨S16777216, .i32⟩
  | .hbm, ⟨54, _⟩ => ⟨S16777216x1, .i32⟩
  | .hbm, ⟨55, _⟩ => ⟨S16777216x1, .i32⟩
  | .hbm, ⟨56, _⟩ => ⟨S16777216x2, .i32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S_, .f32⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S16777216, .f32⟩
  | .hbm, ⟨66, _⟩ => ⟨S16777216, .f32⟩
  | .hbm, ⟨67, _⟩ => ⟨S16777216, .f32⟩
  | .hbm, ⟨68, _⟩ => ⟨S16777216, .f32⟩
  | .hbm, ⟨69, _⟩ => ⟨S16777216, .f32⟩
  | .hbm, ⟨70, _⟩ => ⟨S16777216, .f32⟩
  | .hbm, ⟨71, _⟩ => ⟨S16777216x1, .f32⟩
  | .hbm, ⟨72, _⟩ => ⟨S_, .f32⟩
  | .hbm, ⟨73, _⟩ => ⟨S16777216x1, .f32⟩
  | .hbm, ⟨74, _⟩ => ⟨S16777216x1, .f32⟩
  | .hbm, ⟨75, _⟩ => ⟨S16777216x1, .i32⟩
  | .hbm, ⟨76, _⟩ => ⟨S16777216, .i32⟩
  | .hbm, ⟨77, _⟩ => ⟨S_, .i32⟩
  | .hbm, ⟨78, _⟩ => ⟨S16777216, .i32⟩
  | .hbm, ⟨79, _⟩ => ⟨S16777216, .i1⟩
  | .hbm, ⟨80, _⟩ => ⟨S_, .i32⟩
  | .hbm, ⟨81, _⟩ => ⟨S16777216, .i32⟩
  | .hbm, ⟨82, _⟩ => ⟨S16777216, .i32⟩
  | .hbm, ⟨83, _⟩ => ⟨S16777216, .i32⟩
  | .hbm, ⟨84, _⟩ => ⟨S_, .i32⟩
  | .hbm, ⟨85, _⟩ => ⟨S16777216, .i32⟩
  | .hbm, ⟨86, _⟩ => ⟨S16777216, .i32⟩
  | .hbm, ⟨87, _⟩ => ⟨S16777216x1, .i32⟩
  | .hbm, ⟨88, _⟩ => ⟨S16777216x1, .i32⟩
  | .hbm, ⟨89, _⟩ => ⟨S16777216x2, .i32⟩
  | .hbm, ⟨90, _⟩ => ⟨S16777216, .f32⟩
  | .hbm, ⟨91, _⟩ => ⟨S16777216x1, .i32⟩
  | .hbm, ⟨92, _⟩ => ⟨S16777216, .i32⟩
  | .hbm, ⟨93, _⟩ => ⟨S_, .i32⟩
  | .hbm, ⟨94, _⟩ => ⟨S16777216, .i32⟩
  | .hbm, ⟨95, _⟩ => ⟨S16777216, .i1⟩
  | .hbm, ⟨96, _⟩ => ⟨S_, .i32⟩
  | .hbm, ⟨97, _⟩ => ⟨S16777216, .i32⟩
  | .hbm, ⟨98, _⟩ => ⟨S16777216, .i32⟩
  | .hbm, ⟨99, _⟩ => ⟨S16777216, .i32⟩
  | .hbm, ⟨100, _⟩ => ⟨S_, .i32⟩
  | .hbm, ⟨101, _⟩ => ⟨S16777216, .i32⟩
  | .hbm, ⟨102, _⟩ => ⟨S16777216, .i32⟩
  | .hbm, ⟨103, _⟩ => ⟨S16777216x1, .i32⟩
  | .hbm, ⟨104, _⟩ => ⟨S16777216x1, .i32⟩
  | .hbm, ⟨105, _⟩ => ⟨S16777216x2, .i32⟩
  | .hbm, ⟨106, _⟩ => ⟨S16777216, .f32⟩
  | .hbm, ⟨107, _⟩ => ⟨S16777216, .f32⟩
  | .hbm, ⟨108, _⟩ => ⟨S16777216, .f32⟩
  | .hbm, ⟨109, _⟩ => ⟨S16777216, .f32⟩
  | .hbm, ⟨110, _⟩ => ⟨S16777216x1, .f32⟩
  | _, _ => ⟨S16777217x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  bcast_S_S16777217x1 : S_.BroadcastsInDim S16777217x1 (![] : Fin 0 → Fin S16777217x1.rank)
  bcast_S_S16777215 : S_.BroadcastsInDim S16777215 (![] : Fin 0 → Fin S16777215.rank)
  bcast_S16777215_S16777215x1_0 : S16777215.BroadcastsInDim S16777215x1 (![0] : Fin 1 → Fin S16777215x1.rank)
  bcast_S_S2 : S_.BroadcastsInDim S2 (![] : Fin 0 → Fin S2.rank)
  bcast_S2_S2x1_0 : S2.BroadcastsInDim S2x1 (![0] : Fin 1 → Fin S2x1.rank)
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  slices_S16777216x2_S16777216x1_0_1 : S16777216x2.Slices ![0, 1] S16777216x1
  bcast_S_S16777216x1 : S_.BroadcastsInDim S16777216x1 (![] : Fin 0 → Fin S16777216x1.rank)
  scatter_S16777217x1_S16777215x1_S16777215x1_1_0_0_1_wf : ScatterDims.WF S16777217x1 S16777215x1 S16777215x1 [1] [0] [0] 1
  scatter_S16777217x1_S2x1_S2x1_1_0_0_1_wf : ScatterDims.WF S16777217x1 S2x1 S2x1 [1] [0] [0] 1
  gather_S16777217x1_S16777216x2_S16777216_n_01_n_n_01_1_11_wf : GatherDims.WF S16777217x1 S16777216x2 S16777216 [] [0, 1] [] [0, 1] [] 1 ![1, 1]

variable [Facts₀]

def scatter_S16777217x1_S16777215x1_S16777215x1_1_0_0_1 : ScatterDims S16777217x1 S16777215x1 S16777215x1 where
  updateWindowDims := [1]
  insertedWindowDims := [0]
  scatterDimsToOperandDims := [0]
  indexVectorDim := 1
  wf := scatter_S16777217x1_S16777215x1_S16777215x1_1_0_0_1_wf
def scatter_S16777217x1_S2x1_S2x1_1_0_0_1 : ScatterDims S16777217x1 S2x1 S2x1 where
  updateWindowDims := [1]
  insertedWindowDims := [0]
  scatterDimsToOperandDims := [0]
  indexVectorDim := 1
  wf := scatter_S16777217x1_S2x1_S2x1_1_0_0_1_wf
def gather_S16777217x1_S16777216x2_S16777216_n_01_n_n_01_1_11 : GatherDims S16777217x1 S16777216x2 S16777216 where
  offsetDims := []
  collapsedSliceDims := [0, 1]
  operandBatchingDims := []
  startIndicesBatchingDims := []
  startIndexMap := [0, 1]
  indexVectorDim := 1
  sliceSizes := ![1, 1]
  wf := gather_S16777217x1_S16777216x2_S16777216_n_01_n_n_01_1_11_wf

class Facts : Prop extends Facts₀ where

variable [Facts]
-- ==== Proof.LibTake.lean ====
/-
  The index arithmetic of a one-axis table lookup (jnp.take along one axis, with its default out-of-range
  mode), read at an index.

  For n column words j the lookup first wraps the negative ones (a word below zero has the axis length added),
  lays the wrapped words out as an [n, 1] table of one-component start indices, and computes a mask: a word is
  in range when it is at least a lower word and at most an upper word, the two comparisons joined by and, and
  that [n, 1] array of bits is reduced by and over its unit axis from the initial value true. Each of these is
  read here at an index, for any n and any three words: the wrapped word at q; the table's entry (q, 0); the
  mask's bit at q, which is the and of the two comparisons at (q, 0) and the initial bit. Two readings of a
  mask or a word broadcast along the rows of a two-axis or three-axis result go with them.
-/
import Idealize.ShloMosaic.PureOps.Ideal
import Idealize.ShloMosaic.PureOps.Reduce
import Idealize.ShloMosaic.Lib.ValueIdx
import Idealize.ShloMosaic.Lib.Pipeline.Value
import Idealize.ShloMosaic.Lib.IdealHost

noncomputable section

namespace Cert.LibTake

open Idealize.ShloMosaic Idealize.ShloMosaic.ValueIdx

variable {n : Nat}

/-- A word below zero has the axis length `len` added; any other word is kept. -/
def wrapWord (len j : BitVec 32) : BitVec 32 := Scalar.select (IntOp.cmpi .slt j 0#32) (IntOp.addi j len) j

/-- The range test of a word against a lower and an upper word, joined with the reduction's initial bit. -/
def okWord (lo top j : BitVec 32) : BitVec 1 :=
  IntOp.andi (IntOp.andi (IntOp.cmpi .sge j lo) (IntOp.cmpi .sle j top)) 1#1

/-- The wrap of the negative words, read at an index: the wrap of the word there. -/
theorem wrap_apply (len : BitVec 32) (hb : (⟨0, ![]⟩ : Shape).BroadcastsInDim ⟨1, ![n]⟩ ![]) (j : IVec ⟨1, ![n]⟩ 32)
    (i : (⟨1, ![n]⟩ : Shape).Idx) :
    select (cmpi .slt j (broadcastInDim ⟨1, ![n]⟩ ![] hb (constantI ⟨0, ![]⟩ 32 0#32)))
      (addi j (broadcastInDim ⟨1, ![n]⟩ ![] hb (constantI ⟨0, ![]⟩ 32 len))) j i = wrapWord len (j i) := by
  show Scalar.select (IntOp.cmpi .slt (j i) (broadcastInDim ⟨1, ![n]⟩ ![] hb (constantI ⟨0, ![]⟩ 32 0#32) i))
      (IntOp.addi (j i) (broadcastInDim ⟨1, ![n]⟩ ![] hb (constantI ⟨0, ![]⟩ 32 len) i)) (j i) = _
  rw [broadcastInDim_scalar_apply, broadcastInDim_scalar_apply]
  rfl

/-- The n words laid out as an [n, 1] table read, at (q, 0), word q. -/
theorem column_apply {α : Type} (h : (⟨1, ![n]⟩ : Shape).BroadcastsInDim ⟨2, ![n, 1]⟩ ![0]) (v : (⟨1, ![n]⟩ : Shape).Idx → α)
    (q : Fin n) : broadcastInDim ⟨2, ![n, 1]⟩ ![0] h v (ix2 q (0 : Fin 1)) = v (ix1 q) := by
  refine broadcastInDim_apply _ h v _ (ix1 q) fun a => ?_
  match a with
  | ⟨0, _⟩ =>
    show q.val = if n = 1 then 0 else q.val
    split
    · have := q.isLt; omega
    · rfl

/-- The source index over result index q of an [n, 1] array reduced over its unit axis is (q, 0). -/
theorem lift_unit (hR : (⟨2, ![n, 1]⟩ : Shape).Reduces [1] ⟨1, ![n]⟩) (q : Fin n) (k : Fin ((⟨2, ![n, 1]⟩ : Shape).size 1)) :
    hR.lift (ix1 q) k = ix2 q (0 : Fin 1) := by
  funext c
  refine Fin.ext ?_
  rw [hR.lift_val]
  unfold Shape.Reduces.liftVal
  have e1 : ((1 : Fin (⟨2, ![n, 1]⟩ : Shape).rank) : ℕ) = 1 := rfl
  have hk : k.val = 0 := by have : k.val < 1 := k.isLt; omega
  match c with
  | ⟨0, h0⟩ =>
    have hc : ¬ ((⟨0, h0⟩ : Fin (⟨2, ![n, 1]⟩ : Shape).rank).val = (1 : Fin (⟨2, ![n, 1]⟩ : Shape).rank).val) := by
      rw [e1]; exact Nat.zero_ne_one
    have hl : (⟨0, h0⟩ : Fin (⟨2, ![n, 1]⟩ : Shape).rank).val < (1 : Fin (⟨2, ![n, 1]⟩ : Shape).rank).val := by
      rw [e1]; exact Nat.zero_lt_one
    rw [dif_neg hc, dif_pos hl]
  | ⟨1, h1⟩ =>
    have hc : (⟨1, h1⟩ : Fin (⟨2, ![n, 1]⟩ : Shape).rank).val = (1 : Fin (⟨2, ![n, 1]⟩ : Shape).rank).val := rfl
    rw [dif_pos hc]; exact hk

/-- A fold by and over the one-element index type is the and of that element's bit and the initial bit. -/
theorem fold_and_fin_one (f : Fin 1 → BitVec 1) (b : BitVec 1) :
    (Finset.univ : Finset (Fin 1)).fold IntOp.andi b f = IntOp.andi (f 0) b := by
  rw [Finset.univ_unique, Finset.fold_singleton]
  rfl

/-- THE RANGE MASK READ AT q: the and of the two comparisons of the table's entry (q, 0), joined with the initial
    bit. -/
theorem mask_apply (lo top : BitVec 32) (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel)
    (J : IVec ⟨2, ![n, 1]⟩ 32) (q : Fin n) :
    Host.reduce IntOp.andi
        (andi (cmpi .sge J (broadcastInDim ⟨2, ![n, 1]⟩ ![] hb6 (constantI ⟨0, ![]⟩ 32 lo)))
          (cmpi .sle J (broadcastInDim ⟨2, ![n, 1]⟩ ![0, 1] hb9
            (broadcastInDim ⟨2, ![1, 1]⟩ ![1] hb8 (constantI ⟨1, ![1]⟩ 32 top)))))
        (constantI ⟨0, ![]⟩ 1 1#1) hred hS (ix1 q)
      = okWord lo top (J (ix2 q (0 : Fin 1))) := by
  have hR : (⟨2, ![n, 1]⟩ : Shape).Reduces [1] ⟨1, ![n]⟩ := hred.elim fun h hb => ⟨h, Nat.one_pos, hb⟩
  rw [Host.reduce_eq_fold_single IntOp.andi _ _ hred hR hS (ix1 q)]
  refine (fold_and_fin_one _ _).trans ?_
  show IntOp.andi (IntOp.andi
      (IntOp.cmpi .sge (J (hR.lift (ix1 q) (0 : Fin 1)))
        (broadcastInDim ⟨2, ![n, 1]⟩ ![] hb6 (constantI ⟨0, ![]⟩ 32 lo) (hR.lift (ix1 q) (0 : Fin 1))))
      (IntOp.cmpi .sle (J (hR.lift (ix1 q) (0 : Fin 1)))
        (broadcastInDim ⟨2, ![n, 1]⟩ ![0, 1] hb9 (broadcastInDim ⟨2, ![1, 1]⟩ ![1] hb8 (constantI ⟨1, ![1]⟩ 32 top))
          (hR.lift (ix1 q) (0 : Fin 1))))) 1#1 = _
  rw [lift_unit hR q (0 : Fin 1), broadcastInDim_scalar_apply,
    broadcastInDim_apply _ hb9 _ _ (ix2 (0 : Fin 1) (0 : Fin 1)) (fun a => by
      match a with
      | ⟨0, _⟩ => rfl
      | ⟨1, _⟩ => rfl),
    broadcastInDim_apply _ hb8 _ _ (ix1 (0 : Fin 1)) (fun a => by
      match a with
      | ⟨0, _⟩ => rfl)]
  rfl

/-- n values broadcast along the rows of an [r, n] array read, at (p, q), value q. -/
theorem rows_apply {α : Type} {r : Nat} (h : (⟨1, ![n]⟩ : Shape).BroadcastsInDim ⟨2, ![r, n]⟩ ![1])
    (v : (⟨1, ![n]⟩ : Shape).Idx → α) (p : Fin r) (q : Fin n) :
    broadcastInDim ⟨2, ![r, n]⟩ ![1] h v (ix2 p q) = v (ix1 q) := by
  refine broadcastInDim_apply _ h v _ (ix1 q) fun a => ?_
  match a with
  | ⟨0, _⟩ =>
    show q.val = if n = 1 then 0 else q.val
    split
    · have := q.isLt; omega
    · rfl

/-- n values broadcast along the two leading axes of a [b, r, n] array read, at (u, p, q), value q. -/
theorem rows3_apply {α : Type} {b r : Nat} (h : (⟨1, ![n]⟩ : Shape).BroadcastsInDim ⟨3, ![b, r, n]⟩ ![2])
    (v : (⟨1, ![n]⟩ : Shape).Idx → α) (u : Fin b) (p : Fin r) (q : Fin n) :
    broadcastInDim ⟨3, ![b, r, n]⟩ ![2] h v (ix3 u p q) = v (ix1 q) := by
  refine broadcastInDim_apply _ h v _ (ix1 q) fun a => ?_
  match a with
  | ⟨0, _⟩ =>
    show q.val = if n = 1 then 0 else q.val
    split
    · have := q.isLt; omega
    · rfl

end Cert.LibTake

end
-- ==== Proof.LibEdgeTable.lean ====
/-
  A table of k index words, held as a [k, 1] array, used two ways on the host, each read at an index.

  Picking: the gather that takes one entry of an [n] array, or one whole row of an [n, c] array, per table word.
  Result e (or (e, q)) is the operand at position min (word e read signed, negatives to 0) (n - 1): the gather
  clamps every start index into the operand.

  Accumulating: the scatter with an adding body that sends update e of a [k] array (or row e of a [k, c] array) to
  position (word e read signed) of an [n] operand (or to that row of an [n, c] operand), NOT clamped: an update whose
  word is negative or at least n lands nowhere. On the extended reals the result at position p is the operand there
  plus the sum over all e of the update at e when word e is p, and of 0 otherwise; for rows, component by component.
-/
import Idealize.ShloMosaic.PureOps.Ideal
import Idealize.ShloMosaic.Lib.ValueIdx

noncomputable section

open scoped BigOperators

namespace Cert.LibEdgeTable

open Idealize.ShloMosaic Idealize.ShloMosaic.ValueIdx

/-! ## Sums over a one-axis index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Picking entries and rows by a table -/

section Gather
variable {α : Type}

/-- The dimension numbers of the gather that picks one entry of an [n] array per word of a [k, 1] table. -/
abbrev pickDims (n k : Nat) (wf : GatherDims.WF ⟨1, ![n]⟩ ⟨2, ![k, 1]⟩ ⟨1, ![k]⟩ [] [0] [] [0] [] 1 ![1]) :
    GatherDims ⟨1, ![n]⟩ ⟨2, ![k, 1]⟩ ⟨1, ![k]⟩ where
  offsetDims := []
  collapsedSliceDims := [0]
  operandBatchingDims := []
  startIndicesBatchingDims := []
  startIndexMap := [0]
  indexVectorDim := 1
  sliceSizes := ![1]
  wf := wf

/-- The entry gather read at e: the operand at word e, read signed and clamped into [0, n - 1]. -/
theorem gather_pick_apply {n k w : Nat} (hn : 0 < n)
    (wf : GatherDims.WF ⟨1, ![n]⟩ ⟨2, ![k, 1]⟩ ⟨1, ![k]⟩ [] [0] [] [0] [] 1 ![1])
    (x : (⟨1, ![n]⟩ : Shape).Idx → α) (idx : IVec ⟨2, ![k, 1]⟩ w) (e : Fin k) :
    Host.gather (pickDims n k wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (pickDims n k wf).start (ix1 e) idx 0 + (pickDims n k wf).batchCoord (ix1 e) 0
      + (pickDims n k wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n k wf).startIndexMap from List.mem_singleton.mpr rfl)]
  have hsi : (pickDims n k wf).siIdx (ix1 e) ⟨List.idxOf (0 : Fin 1) (pickDims n k wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of the gather that picks one whole row of an [n, c] array per word of a [k, 1] table. -/
abbrev rowsDims (n c k : Nat)
    (wf : GatherDims.WF ⟨2, ![n, c]⟩ ⟨2, ![k, 1]⟩ ⟨2, ![k, c]⟩ [1] [0] [] [0] [] 1 ![1, c]) :
    GatherDims ⟨2, ![n, c]⟩ ⟨2, ![k, 1]⟩ ⟨2, ![k, c]⟩ where
  offsetDims := [1]
  collapsedSliceDims := [0]
  operandBatchingDims := []
  startIndicesBatchingDims := []
  startIndexMap := [0]
  indexVectorDim := 1
  sliceSizes := ![1, c]
  wf := wf

/-- The row gather read at (e, q): the operand at row word e, read signed and clamped into [0, n - 1], column q. -/
theorem gather_rows_apply {n c k w : Nat} (hn : 0 < n)
    (wf : GatherDims.WF ⟨2, ![n, c]⟩ ⟨2, ![k, 1]⟩ ⟨2, ![k, c]⟩ [1] [0] [] [0] [] 1 ![1, c])
    (x : (⟨2, ![n, c]⟩ : Shape).Idx → α) (idx : IVec ⟨2, ![k, 1]⟩ w) (e : Fin k) (q : Fin c) :
    Host.gather (rowsDims n c k wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ =>
    show (rowsDims n c k wf).start (ix2 e q) idx 0 + (rowsDims n c k wf).batchCoord (ix2 e q) 0
        + (rowsDims n c k wf).offCoord (ix2 e q) 0 = min (idx (ix2 e (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n c k wf).startIndexMap from List.mem_singleton.mpr rfl)]
    have hsi : (rowsDims n c k wf).siIdx (ix2 e q) ⟨List.idxOf (0 : Fin 2) (rowsDims n c k wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n c k wf).start (ix2 e q) idx 1 + (rowsDims n c k wf).batchCoord (ix2 e q) 1
        + (rowsDims n c k wf).offCoord (ix2 e q) 1 = q.val
    rw [GatherDims.batchCoord_eq_zero _ _ _ List.not_mem_nil]
    unfold GatherDims.start
    rw [dif_neg (show (1 : Fin 2) ∉ (rowsDims n c k wf).startIndexMap from
      show (1 : Fin 2) ∉ ([0] : List (Fin 2)) from by decide)]
    unfold GatherDims.offCoord
    rw [dif_pos (show (1 : Fin 2) ∈ (rowsDims n c k wf).sKept from (GatherDims.mem_sKept _ _).mpr
      ⟨show (1 : Fin 2) ∉ ([0] : List (Fin 2)) from by decide, List.not_mem_nil⟩)]
    simp only [Nat.zero_add, Nat.add_zero]
    rfl

end Gather

/-! ## Where an update lands -/

/-- An update lands on operand index i exactly when, on every axis, its start (read signed off the table) plus its
    window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      intro a
      have ha : (d.start j idx a + (d.window j a : ℤ)).toNat = (i a).val :=
        congrArg Fin.val (congrFun (Option.some.inj h) a)
      have := hh a
      omega
    · exact absurd h (by simp)
  · intro h
    have hh : ∀ a, 0 ≤ d.start j idx a + (d.window j a : ℤ) ∧ d.start j idx a + (d.window j a : ℤ) < s.size a :=
      fun a => by
        rw [h a]
        exact ⟨Int.natCast_nonneg _, by exact_mod_cast (i a).isLt⟩
    rw [dif_pos hh]
    congr 1
    funext a
    refine Fin.ext ?_
    show (d.start j idx a + (d.window j a : ℤ)).toNat = (i a).val
    rw [h a]
    exact Int.toNat_natCast _

/-- On the extended reals the host's accumulating scatter is the exact sum of the landing updates, whatever its
    dimension numbers. -/
theorem hostScatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## Accumulating into an [n] array -/

/-- The dimension numbers of the scatter that sends update e of a [k] array to position word e of an [n] operand. -/
abbrev addDims1 (n k : Nat) (wf : ScatterDims.WF ⟨1, ![n]⟩ ⟨2, ![k, 1]⟩ ⟨1, ![k]⟩ [] [0] [0] 1) :
    ScatterDims ⟨1, ![n]⟩ ⟨2, ![k, 1]⟩ ⟨1, ![k]⟩ where
  updateWindowDims := []
  insertedWindowDims := [0]
  scatterDimsToOperandDims := [0]
  indexVectorDim := 1
  wf := wf

section Add1
variable {n k w : Nat} (wf : ScatterDims.WF ⟨1, ![n]⟩ ⟨2, ![k, 1]⟩ ⟨1, ![k]⟩ [] [0] [0] 1)
  (idx : IVec ⟨2, ![k, 1]⟩ w) (e : Fin k)

theorem addDims1_start : (addDims1 n k wf).start (ix1 e) idx 0 = (idx (ix2 e (0 : Fin 1))).toInt := by
  unfold ScatterDims.start
  rw [dif_pos (show (0 : Fin 1) ∈ (addDims1 n k wf).scatterDimsToOperandDims from List.mem_singleton.mpr rfl)]
  have hsi : (addDims1 n k wf).siIdx (ix1 e) ⟨List.idxOf (0 : Fin 1) (addDims1 n k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims1_window : (addDims1 n k wf).window (ix1 e) 0 = 0 := by
  unfold ScatterDims.window
  rw [dif_neg (show (0 : Fin 1) ∉ (addDims1 n k wf).sKept from by
    simp [ScatterDims.sKept, Shape.kept])]

/-- Update e lands on position p exactly when word e, read signed, is p. -/
theorem addDims1_lands (p : Fin n) :
    (addDims1 n k wf).resultIdx? (ix1 e) idx = some (ix1 p) ↔ (idx (ix2 e (0 : Fin 1))).toInt = (p.val : ℤ) := by
  rw [resultIdx?_eq_some_iff, Fin.forall_fin_one, addDims1_start, addDims1_window]
  show (idx (ix2 e (0 : Fin 1))).toInt + ((0 : ℕ) : ℤ) = (p.val : ℤ) ↔ _
  rw [Int.natCast_zero, Int.add_zero]

end Add1

/-- The accumulating scatter into an [n] array read at p: the operand there plus, over all e, the update at e
    when word e is p. -/
theorem scatterAdd1_apply {n k w : Nat} (wf : ScatterDims.WF ⟨1, ![n]⟩ ⟨2, ![k, 1]⟩ ⟨1, ![k]⟩ [] [0] [0] 1)
    (x : (⟨1, ![n]⟩ : Shape).Idx → EReal) (idx : IVec ⟨2, ![k, 1]⟩ w) (upd : (⟨1, ![k]⟩ : Shape).Idx → EReal)
    (p : Fin n) :
    Ideal.hostScatterAdd (addDims1 n k wf) x idx upd (ix1 p)
      = x (ix1 p) + ∑ e : Fin k, if (idx (ix2 e (0 : Fin 1))).toInt = (p.val : ℤ) then upd (ix1 e) else 0 := by
  unfold Ideal.hostScatterAdd
  congr 1
  rw [Finset.sum_filter, sum_idx1]
  refine Finset.sum_congr rfl fun e _ => ?_
  by_cases h : (idx (ix2 e (0 : Fin 1))).toInt = (p.val : ℤ)
  · rw [if_pos ((addDims1_lands wf idx e p).mpr h), if_pos h]
  · rw [if_neg (fun h' => h ((addDims1_lands wf idx e p).mp h')), if_neg h]

/-! ## Accumulating rows into an [n, c] array -/

/-- The dimension numbers of the scatter that sends row e of a [k, c] array to row word e of an [n, c] operand. -/
abbrev addDims2 (n c k : Nat) (wf : ScatterDims.WF ⟨2, ![n, c]⟩ ⟨2, ![k, 1]⟩ ⟨2, ![k, c]⟩ [1] [0] [0] 1) :
    ScatterDims ⟨2, ![n, c]⟩ ⟨2, ![k, 1]⟩ ⟨2, ![k, c]⟩ where
  updateWindowDims := [1]
  insertedWindowDims := [0]
  scatterDimsToOperandDims := [0]
  indexVectorDim := 1
  wf := wf

section Add2
variable {n c k w : Nat} (wf : ScatterDims.WF ⟨2, ![n, c]⟩ ⟨2, ![k, 1]⟩ ⟨2, ![k, c]⟩ [1] [0] [0] 1)
  (idx : IVec ⟨2, ![k, 1]⟩ w) (e : Fin k) (q : Fin c)

theorem addDims2_start0 : (addDims2 n c k wf).start (ix2 e q) idx 0 = (idx (ix2 e (0 : Fin 1))).toInt := by
  unfold ScatterDims.start
  rw [dif_pos (show (0 : Fin 2) ∈ (addDims2 n c k wf).scatterDimsToOperandDims from List.mem_singleton.mpr rfl)]
  have hsi : (addDims2 n c k wf).siIdx (ix2 e q) ⟨List.idxOf (0 : Fin 2) (addDims2 n c k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims2_start1 : (addDims2 n c k wf).start (ix2 e q) idx 1 = 0 := by
  unfold ScatterDims.start
  rw [dif_neg (show (1 : Fin 2) ∉ (addDims2 n c k wf).scatterDimsToOperandDims from
    show (1 : Fin 2) ∉ ([0] : List (Fin 2)) from by decide)]

theorem addDims2_window0 : (addDims2 n c k wf).window (ix2 e q) 0 = 0 := by
  unfold ScatterDims.window
  rw [dif_neg (show (0 : Fin 2) ∉ (addDims2 n c k wf).sKept from by
    simp [ScatterDims.sKept, Shape.kept])]

theorem addDims2_window1 : (addDims2 n c k wf).window (ix2 e q) 1 = q.val := by
  unfold ScatterDims.window
  rw [dif_pos (show (1 : Fin 2) ∈ (addDims2 n c k wf).sKept from by
    simp [ScatterDims.sKept, Shape.kept])]
  rfl

/-- Entry (e, q) lands on (p, r) exactly when word e, read signed, is p and q is r. -/
theorem addDims2_lands (p : Fin n) (r : Fin c) :
    (addDims2 n c k wf).resultIdx? (ix2 e q) idx = some (ix2 p r)
      ↔ (idx (ix2 e (0 : Fin 1))).toInt = (p.val : ℤ) ∧ q = r := by
  rw [resultIdx?_eq_some_iff, Fin.forall_fin_two, addDims2_start0, addDims2_start1, addDims2_window0, addDims2_window1]
  show (idx (ix2 e (0 : Fin 1))).toInt + ((0 : ℕ) : ℤ) = (p.val : ℤ) ∧ (0 : ℤ) + (q.val : ℤ) = (r.val : ℤ) ↔ _
  rw [Int.natCast_zero, Int.add_zero, Int.zero_add]
  exact and_congr_right fun _ => ⟨fun h => Fin.ext (by exact_mod_cast h), fun h => by rw [h]⟩

end Add2

/-- The accumulating scatter of rows into an [n, c] array read at (p, r): the operand there plus, over all e, the
    update at (e, r) when word e is p. -/
theorem scatterAdd2_apply {n c k w : Nat}
    (wf : ScatterDims.WF ⟨2, ![n, c]⟩ ⟨2, ![k, 1]⟩ ⟨2, ![k, c]⟩ [1] [0] [0] 1)
    (x : (⟨2, ![n, c]⟩ : Shape).Idx → EReal) (idx : IVec ⟨2, ![k, 1]⟩ w) (upd : (⟨2, ![k, c]⟩ : Shape).Idx → EReal)
    (p : Fin n) (r : Fin c) :
    Ideal.hostScatterAdd (addDims2 n c k wf) x idx upd (ix2 p r)
      = x (ix2 p r)
        + ∑ e : Fin k, if (idx (ix2 e (0 : Fin 1))).toInt = (p.val : ℤ) then upd (ix2 e r) else 0 := by
  unfold Ideal.hostScatterAdd
  congr 1
  rw [Finset.sum_filter, sum_idx2]
  refine Finset.sum_congr rfl fun e _ => ?_
  by_cases h : (idx (ix2 e (0 : Fin 1))).toInt = (p.val : ℤ)
  · rw [if_pos h, Finset.sum_eq_single r]
    · rw [if_pos ((addDims2_lands wf idx e r p r).mpr ⟨h, rfl⟩)]
    · intro q _ hq
      rw [if_neg (fun h' => hq ((addDims2_lands wf idx e q p r).mp h').2)]
    · intro hr; exact absurd (Finset.mem_univ r) hr
  · rw [if_neg h]
    refine Finset.sum_eq_zero fun q _ => ?_
    rw [if_neg (fun h' => h ((addDims2_lands wf idx e q p r).mp h').1)]

end Cert.LibEdgeTable

end
-- ==== Proof.Words.lean ====
/-
  Index words of the element table.

  An index word e addresses a node of a mesh of 16777217 nodes the way array indexing reads it: a word below zero
  has 16777217 added, any other word is kept. When e lies in [-16777217, 16777217) the wrapped word lies in
  [0, 16777216], so the range test "at least 0 and at most 16777216" on the wrapped word is true, and the node
  addressed is the wrapped word itself, with nothing clamped.
-/
import Idealize.ShloMosaic.PureOps.Ideal

namespace Cert.Words

open Idealize.ShloMosaic

/-- The wrap of an index word: a word below zero has the node count added. -/
def wrap (e : BitVec 32) : BitVec 32 := Scalar.select (IntOp.cmpi .slt e 0#32) (IntOp.addi e 16777217#32) e

/-- The words that address a node: from minus the node count up to the node count, exclusive. -/
def InRange (e : BitVec 32) : Prop := -16777217 ≤ e.toInt ∧ e.toInt < 16777217

theorem slt_zero_iff (e : BitVec 32) : e.slt 0#32 = true ↔ e.toInt < 0 := by
  rw [BitVec.slt_iff_toInt_lt]; rfl

/-- A word in range wraps to a word between 0 and 16777216, read signed. -/
theorem wrap_toInt (e : BitVec 32) (h : InRange e) : 0 ≤ (wrap e).toInt ∧ (wrap e).toInt ≤ 16777216 := by
  obtain ⟨h1, h2⟩ := h
  unfold wrap Scalar.select IntOp.cmpi IntOp.addi
  by_cases hn : e.toInt < 0
  · have hs : e.slt 0#32 = true := (slt_zero_iff e).2 hn
    simp only [hs, BitVec.ofBool_true, if_true]
    rw [BitVec.toInt_add]
    have h17 : (16777217#32 : BitVec 32).toInt = 16777217 := by decide
    rw [h17]
    have : (e.toInt + 16777217).bmod (2 ^ 32) = e.toInt + 16777217 := by
      apply Int.bmod_eq_of_le <;> omega
    rw [this]; omega
  · have hs : e.slt 0#32 = false := by
      rw [Bool.eq_false_iff]; intro hc; exact hn ((slt_zero_iff e).1 hc)
    simp only [hs, BitVec.ofBool_false]
    have : ¬ ((0 : BitVec 1) = 1) := by decide
    rw [if_neg this]
    omega

/-- The range test of the wrapped word (at least 0, at most 16777216, joined with a true bit) passes for a word in range. -/
theorem ok_of_inRange (e : BitVec 32) (h : InRange e) :
    IntOp.andi (IntOp.andi (IntOp.cmpi .sge (wrap e) 0#32) (IntOp.cmpi .sle (wrap e) 16777216#32)) 1#1 = 1#1 := by
  obtain ⟨a, b⟩ := wrap_toInt e h
  have h1 : (0#32 : BitVec 32).sle (wrap e) = true := by
    rw [BitVec.sle_iff_toInt_le]; exact a
  have h2 : (wrap e).sle 16777216#32 = true := by
    rw [BitVec.sle_iff_toInt_le]
    have : (16777216#32 : BitVec 32).toInt = 16777216 := by decide
    rw [this]; exact b
  unfold IntOp.andi IntOp.cmpi
  simp only [h1, h2, BitVec.ofBool_true]
  decide

/-- The node an index word addresses: the wrapped word read signed, kept inside the mesh. -/
def node (e : BitVec 32) : Fin 16777217 := ⟨min (wrap e).toInt.toNat (16777217 - 1), by omega⟩

end Cert.Words
-- ==== Proof.Gather2.lean ====
/-
  Picking entries of a one-column table by a two-column index table.

  An [n, 1] array x indexed as x[j, 0] for k words j lowers to a gather whose start indices are a [k, 2] table, row e
  holding (word e, 0), both operand axes collapsed, both named by the start index map, slice sizes (1, 1). Result e
  is x at (min (word (e, 0) read signed, negatives to 0) (n - 1), 0): the gather clamps each start index into the
  operand, and on the axis of extent one there is only position 0, whatever the second column holds.
-/
import Idealize.ShloMosaic.PureOps.Ideal
import Idealize.ShloMosaic.Lib.ValueIdx

noncomputable section

namespace Cert.Gather2

open Idealize.ShloMosaic Idealize.ShloMosaic.ValueIdx

variable {α : Type}

/-- The dimension numbers of that gather. -/
abbrev dims (n k : Nat) (wf : GatherDims.WF ⟨2, ![n, 1]⟩ ⟨2, ![k, 2]⟩ ⟨1, ![k]⟩ [] [0, 1] [] [0, 1] [] 1 ![1, 1]) :
    GatherDims ⟨2, ![n, 1]⟩ ⟨2, ![k, 2]⟩ ⟨1, ![k]⟩ where
  offsetDims := []
  collapsedSliceDims := [0, 1]
  operandBatchingDims := []
  startIndicesBatchingDims := []
  startIndexMap := [0, 1]
  indexVectorDim := 1
  sliceSizes := ![1, 1]
  wf := wf

/-- The gather read at e: the operand at row (word (e, 0), read signed and clamped into [0, n - 1]) of its one column. -/
theorem gather_apply {n k w : Nat} (hn : 0 < n)
    (wf : GatherDims.WF ⟨2, ![n, 1]⟩ ⟨2, ![k, 2]⟩ ⟨1, ![k]⟩ [] [0, 1] [] [0, 1] [] 1 ![1, 1])
    (x : (⟨2, ![n, 1]⟩ : Shape).Idx → α) (idx : IVec ⟨2, ![k, 2]⟩ w) (e : Fin k) :
    Host.gather (dims n k wf) x idx (ix1 e)
      = x (ix2 ⟨min (idx (ix2 e (0 : Fin 2))).toInt.toNat (n - 1), by omega⟩ (0 : Fin 1)) := by
  unfold Host.gather
  congr 1
  funext a
  refine Fin.ext ?_
  match a with
  | ⟨1, h1⟩ =>
    have hlt := (dims n k wf).lt (ix1 e) idx ⟨1, h1⟩
    have hsz : (⟨2, ![n, 1]⟩ : Shape).size ⟨1, h1⟩ = 1 := rfl
    rw [hsz] at hlt
    show (dims n k wf).start (ix1 e) idx ⟨1, h1⟩ + (dims n k wf).batchCoord (ix1 e) ⟨1, h1⟩
      + (dims n k wf).offCoord (ix1 e) ⟨1, h1⟩ = 0
    omega
  | ⟨0, h0⟩ =>
    show (dims n k wf).start (ix1 e) idx ⟨0, h0⟩ + (dims n k wf).batchCoord (ix1 e) ⟨0, h0⟩
      + (dims n k wf).offCoord (ix1 e) ⟨0, h0⟩ = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    have hm : (⟨0, h0⟩ : Fin (⟨2, ![n, 1]⟩ : Shape).rank) ∈ (dims n k wf).startIndexMap := List.mem_cons_self
    rw [dif_pos hm]
    have hsi : (dims n k wf).siIdx (ix1 e) ⟨List.idxOf (⟨0, h0⟩ : Fin (⟨2, ![n, 1]⟩ : Shape).rank) (dims n k wf).startIndexMap,
        List.idxOf_lt_length_iff.2 hm⟩ = ix2 e (0 : Fin 2) := by
      funext b; refine Fin.ext ?_
      match b with
      | ⟨0, _⟩ => rfl
      | ⟨1, _⟩ => rfl
    rw [hsi]
    rfl

/-- The same with the word named: where row e of the table starts with the word v, result e is the operand at row v, read signed
    and clamped. -/
theorem gather_apply_of {n k w : Nat} (hn : 0 < n)
    (wf : GatherDims.WF ⟨2, ![n, 1]⟩ ⟨2, ![k, 2]⟩ ⟨1, ![k]⟩ [] [0, 1] [] [0, 1] [] 1 ![1, 1])
    (x : (⟨2, ![n, 1]⟩ : Shape).Idx → α) (idx : IVec ⟨2, ![k, 2]⟩ w) (e : Fin k) (v : BitVec w)
    (hv : idx (ix2 e (0 : Fin 2)) = v) :
    Host.gather (dims n k wf) x idx (ix1 e) = x (ix2 ⟨min v.toInt.toNat (n - 1), by omega⟩ (0 : Fin 1)) := by
  subst hv
  exact gather_apply hn wf x idx e

end Cert.Gather2

end
-- ==== Proof.Lookup.lean ====
/-
  Looking a one-column table up by index words, two ways, each read at an index.

  The words are 16777216 entries j of an index array; each is wrapped (a word below zero has the row count
  16777217 added) and addresses a row of a table of 16777217 rows.

  The masked lookup works on the table flattened to one axis: the wrapped words are laid out as a [16777216, 1]
  table of start indices, entry q is picked by a clamping gather, and where the wrapped word fails the range test
  (at least 0, at most 16777216) the pick is replaced by a fill value. For a word in range the test passes and the
  result at q is the table's row (wrapped word q).

  The plain lookup works on the [16777217, 1] table itself: the wrapped words are joined with a second column into a
  [16777216, 2] table of start indices and entry q is picked by a clamping gather with both axes collapsed; the result
  at q is row (wrapped word q, clamped) of the one column, for every word.

  Also here: a [n, 1] array flattened to [n] read at p, and a column of the [16777216, 2] element table flattened to
  one axis read at q.
-/
import Idealize.ShloMosaic.PureOps.Ideal
import Idealize.ShloMosaic.PureOps.Reduce
import Idealize.ShloMosaic.Lib.ValueIdx
import Idealize.ShloMosaic.Lib.Pipeline.Value
import proofs.«425662_j6262062318225_3_alg».proof.Proof.LibTake
import proofs.«425662_j6262062318225_3_alg».proof.Proof.LibEdgeTable
import proofs.«425662_j6262062318225_3_alg».proof.Proof.Words
import proofs.«425662_j6262062318225_3_alg».proof.Proof.Gather2

noncomputable section

namespace Cert.Lookup

open Idealize.ShloMosaic Idealize.ShloMosaic.ValueIdx Cert.Words

/-- Rows of the table. -/
abbrev N : Nat := 16777217
/-- Index words. -/
abbrev K : Nat := 16777216

variable {α : Type}

/-! ## The wrapped words as a one-column table -/

/-- The wrapped words, laid out as a [K, 1] table. -/
def table (hb : (⟨0, ![]⟩ : Shape).BroadcastsInDim ⟨1, ![K]⟩ ![])
    (hc : (⟨1, ![K]⟩ : Shape).BroadcastsInDim ⟨2, ![K, 1]⟩ ![0]) (j : IVec ⟨1, ![K]⟩ 32) : IVec ⟨2, ![K, 1]⟩ 32 :=
  broadcastInDim ⟨2, ![K, 1]⟩ ![0] hc
    (select (cmpi .slt j (broadcastInDim ⟨1, ![K]⟩ ![] hb (constantI ⟨0, ![]⟩ 32 0#32)))
      (addi j (broadcastInDim ⟨1, ![K]⟩ ![] hb (constantI ⟨0, ![]⟩ 32 16777217#32))) j)

/-- Entry (q, 0) of the table is the wrap of word q. -/
theorem table_apply (hb : (⟨0, ![]⟩ : Shape).BroadcastsInDim ⟨1, ![K]⟩ ![])
    (hc : (⟨1, ![K]⟩ : Shape).BroadcastsInDim ⟨2, ![K, 1]⟩ ![0]) (j : IVec ⟨1, ![K]⟩ 32) (q : Fin K) :
    table hb hc j (ix2 q (0 : Fin 1)) = wrap (j (ix1 q)) := by
  unfold table
  rw [Cert.LibTake.column_apply, Cert.LibTake.wrap_apply]
  rfl

/-! ## The masked lookup in the flattened table -/

/-- The entry gather with the word named. -/
theorem pick_of {n k w : Nat} (hn : 0 < n)
    (wf : GatherDims.WF ⟨1, ![n]⟩ ⟨2, ![k, 1]⟩ ⟨1, ![k]⟩ [] [0] [] [0] [] 1 ![1])
    (x : (⟨1, ![n]⟩ : Shape).Idx → α) (idx : IVec ⟨2, ![k, 1]⟩ w) (e : Fin k) (v : BitVec w)
    (hv : idx (ix2 e (0 : Fin 1)) = v) :
    Host.gather (Cert.LibEdgeTable.pickDims n k wf) x idx (ix1 e) = x (ix1 ⟨min v.toInt.toNat (n - 1), by omega⟩) := by
  subst hv
  exact Cert.LibEdgeTable.gather_pick_apply hn wf x idx e

/-- The masked lookup of the words j in the flat table x, with fill value fill. -/
def take (hb : (⟨0, ![]⟩ : Shape).BroadcastsInDim ⟨1, ![K]⟩ ![])
    (hc : (⟨1, ![K]⟩ : Shape).BroadcastsInDim ⟨2, ![K, 1]⟩ ![0])
    (hb6 : (⟨0, ![]⟩ : Shape).BroadcastsInDim ⟨2, ![K, 1]⟩ ![])
    (hb8 : (⟨1, ![1]⟩ : Shape).BroadcastsInDim ⟨2, ![1, 1]⟩ ![1])
    (hb9 : (⟨2, ![1, 1]⟩ : Shape).BroadcastsInDim ⟨2, ![K, 1]⟩ ![0, 1])
    (hred : (⟨2, ![K, 1]⟩ : Shape).ReducesTo [1] ⟨1, ![K]⟩) (hS : 0 < (⟨0, ![]⟩ : Shape).numel)
    (wf : GatherDims.WF ⟨1, ![N]⟩ ⟨2, ![K, 1]⟩ ⟨1, ![K]⟩ [] [0] [] [0] [] 1 ![1])
    (x : (⟨1, ![N]⟩ : Shape).Idx → α) (fill : (⟨0, ![]⟩ : Shape).Idx → α) (j : IVec ⟨1, ![K]⟩ 32) :
    (⟨1, ![K]⟩ : Shape).Idx → α :=
  select
    (Host.reduce IntOp.andi
      (andi (cmpi .sge (table hb hc j) (broadcastInDim ⟨2, ![K, 1]⟩ ![] hb6 (constantI ⟨0, ![]⟩ 32 0#32)))
        (cmpi .sle (table hb hc j) (broadcastInDim ⟨2, ![K, 1]⟩ ![0, 1] hb9
          (broadcastInDim ⟨2, ![1, 1]⟩ ![1] hb8 (constantI ⟨1, ![1]⟩ 32 16777216#32)))))
      (constantI ⟨0, ![]⟩ 1 1#1) hred hS)
    (Host.gather (Cert.LibEdgeTable.pickDims N K wf) x (table hb hc j))
    (broadcastInDim ⟨1, ![K]⟩ ![] hb fill)

/-- For a word in range the masked lookup at q is the table's row at the wrapped word. -/
theorem take_apply (hb : (⟨0, ![]⟩ : Shape).BroadcastsInDim ⟨1, ![K]⟩ ![])
    (hc : (⟨1, ![K]⟩ : Shape).BroadcastsInDim ⟨2, ![K, 1]⟩ ![0])
    (hb6 : (⟨0, ![]⟩ : Shape).BroadcastsInDim ⟨2, ![K, 1]⟩ ![])
    (hb8 : (⟨1, ![1]⟩ : Shape).BroadcastsInDim ⟨2, ![1, 1]⟩ ![1])
    (hb9 : (⟨2, ![1, 1]⟩ : Shape).BroadcastsInDim ⟨2, ![K, 1]⟩ ![0, 1])
    (hred : (⟨2, ![K, 1]⟩ : Shape).ReducesTo [1] ⟨1, ![K]⟩) (hS : 0 < (⟨0, ![]⟩ : Shape).numel)
    (wf : GatherDims.WF ⟨1, ![N]⟩ ⟨2, ![K, 1]⟩ ⟨1, ![K]⟩ [] [0] [] [0] [] 1 ![1])
    (x : (⟨1, ![N]⟩ : Shape).Idx → α) (fill : (⟨0, ![]⟩ : Shape).Idx → α) (j : IVec ⟨1, ![K]⟩ 32) (q : Fin K)
    (hq : InRange (j (ix1 q))) :
    take hb hc hb6 hb8 hb9 hred hS wf x fill j (ix1 q) = x (ix1 (node (j (ix1 q)))) := by
  unfold take
  rw [select_apply, Cert.LibTake.mask_apply, table_apply,
    pick_of (by decide) wf x (table hb hc j) q (wrap (j (ix1 q))) (table_apply hb hc j q)]
  have hok : Cert.LibTake.okWord 0#32 16777216#32 (wrap (j (ix1 q))) = 1#1 := ok_of_inRange _ hq
  rw [hok, select_one]
  rfl

/-! ## The plain lookup in the one-column table -/

/-- The wrapped words joined with a second column z into a [K, 2] table. -/
def table2 (hb : (⟨0, ![]⟩ : Shape).BroadcastsInDim ⟨1, ![K]⟩ ![])
    (hc : (⟨1, ![K]⟩ : Shape).BroadcastsInDim ⟨2, ![K, 1]⟩ ![0])
    (hcat : Shape.Concatenates [(⟨2, ![K, 1]⟩ : Shape), ⟨2, ![K, 1]⟩] ⟨2, ![K, 2]⟩ 1)
    (j : IVec ⟨1, ![K]⟩ 32) (z : IVec ⟨2, ![K, 1]⟩ 32) : IVec ⟨2, ![K, 2]⟩ 32 :=
  concatenate ⟨2, ![K, 2]⟩ 1 [⟨⟨2, ![K, 1]⟩, table hb hc j⟩, ⟨⟨2, ![K, 1]⟩, z⟩] hcat

/-- Its entry (q, 0) is the wrap of word q. -/
theorem table2_apply (hb : (⟨0, ![]⟩ : Shape).BroadcastsInDim ⟨1, ![K]⟩ ![])
    (hc : (⟨1, ![K]⟩ : Shape).BroadcastsInDim ⟨2, ![K, 1]⟩ ![0])
    (hcat : Shape.Concatenates [(⟨2, ![K, 1]⟩ : Shape), ⟨2, ![K, 1]⟩] ⟨2, ![K, 2]⟩ 1)
    (j : IVec ⟨1, ![K]⟩ 32) (z : IVec ⟨2, ![K, 1]⟩ 32) (q : Fin K) :
    table2 hb hc hcat j z (ix2 q (0 : Fin 2)) = wrap (j (ix1 q)) := by
  unfold table2
  rw [concatenate_pair_apply_left 1 (table hb hc j) z hcat (ix2 q (0 : Fin 2)) rfl (ix2 q (0 : Fin 1)) (fun b => by
    match b with
    | ⟨0, _⟩ => rfl
    | ⟨1, _⟩ => rfl)]
  exact table_apply hb hc j q

/-- The plain lookup at q is the table's row at the wrapped word, clamped into the table, for every word. -/
theorem pick2_apply (hb : (⟨0, ![]⟩ : Shape).BroadcastsInDim ⟨1, ![K]⟩ ![])
    (hc : (⟨1, ![K]⟩ : Shape).BroadcastsInDim ⟨2, ![K, 1]⟩ ![0])
    (hcat : Shape.Concatenates [(⟨2, ![K, 1]⟩ : Shape), ⟨2, ![K, 1]⟩] ⟨2, ![K, 2]⟩ 1)
    (wf : GatherDims.WF ⟨2, ![N, 1]⟩ ⟨2, ![K, 2]⟩ ⟨1, ![K]⟩ [] [0, 1] [] [0, 1] [] 1 ![1, 1])
    (x : (⟨2, ![N, 1]⟩ : Shape).Idx → α) (j : IVec ⟨1, ![K]⟩ 32) (z : IVec ⟨2, ![K, 1]⟩ 32) (q : Fin K) :
    Host.gather (Cert.Gather2.dims N K wf) x (table2 hb hc hcat j z) (ix1 q) = x (ix2 (node (j (ix1 q))) (0 : Fin 1)) :=
  Cert.Gather2.gather_apply_of (by decide) wf x (table2 hb hc hcat j z) q (wrap (j (ix1 q))) (table2_apply hb hc hcat j z q)

/-! ## Flattening -/

/-- An [n, 1] array flattened to [n] reads, at p, entry (p, 0). -/
theorem flat_apply {n : Nat} (h : (⟨2, ![n, 1]⟩ : Shape).ShapeCasts ⟨1, ![n]⟩) (x : (⟨2, ![n, 1]⟩ : Shape).Idx → α) (p : Fin n) :
    shapeCast ⟨1, ![n]⟩ x h (ix1 p) = x (ix2 p (0 : Fin 1)) :=
  shapeCast_apply x h (ix1 p) (ix2 p (0 : Fin 1)) (by
    rewrite [Shape.rowMajor_val_two, Shape.rowMajor_val_one]
    show p.val * 1 + 0 = p.val
    omega)

/-- Column c of the [K, 2] element table, sliced out and flattened, reads at q the table's entry (q, c). -/
theorem column_apply (c : Fin 2) (hs : (⟨2, ![K, 2]⟩ : Shape).Slices ![0, c.val] ⟨2, ![K, 1]⟩)
    (h : (⟨2, ![K, 1]⟩ : Shape).ShapeCasts ⟨1, ![K]⟩) (E : IVec ⟨2, ![K, 2]⟩ 32) (q : Fin K) :
    shapeCast ⟨1, ![K]⟩ (extractStridedSlice ⟨2, ![K, 1]⟩ ![0, c.val] E hs) h (ix1 q) = E (ix2 q c) := by
  rw [flat_apply]
  refine extractStridedSlice_apply _ E hs _ (ix2 q c) fun a => ?_
  match a with
  | ⟨0, _⟩ => show q.val = 0 + q.val; omega
  | ⟨1, _⟩ => show c.val = c.val + 0; omega

end Cert.Lookup

end
-- ==== Proof.KernelPrefix.lean ====
/-
  The four arrays the region is given.

  Before the region the program assembles the nodal-value table (ones, overwritten at the free nodes and then at the
  boundary nodes, the index words wrapped first), takes the two columns of the element table, flattens the coordinate
  table and the value table, looks each column up in each table with the masked one-axis lookup, and folds the four
  results into [131072, 128] arrays. Read one stretch of host operations at a time, from whatever the stretch before
  left: each lookup stretch turns a flat table and a column of index words into their masked lookup, the single
  operations between them flatten a table, the last stretch folds. Put together, each of the four arrays is the fold of
  the masked lookup of a column of the element table in the flattened coordinate or value table.
-/
import proofs.«425662_j6262062318225_3_alg».proof.Proof.Gen.KernelIdeal.Frame
import proofs.«425662_j6262062318225_3_alg».proof.Proof.Lookup
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-! ## The lookup and the value table, as the program spells them -/

/-- The wrapped index words as a one-column table. -/
def tbl (j : IVec S16777216 32) : IVec S16777216x1 32 :=
  broadcastInDim S16777216x1 ![0] Facts₀.bcast_S16777216_S16777216x1_0
    (select (cmpi .slt j (broadcastInDim S16777216 ![] Facts₀.bcast_S_S16777216 (constantI S_ 32 0#32)))
      (addi j (broadcastInDim S16777216 ![] Facts₀.bcast_S_S16777216 (constantI S_ 32 16777217#32))) j)

/-- The masked lookup of the words j in the flat table x. -/
def lookup (x : S16777217.Idx → Elt F .f32) (j : IVec S16777216 32) : S16777216.Idx → Elt F .f32 :=
  select
    (Host.reduce IntOp.andi
      (andi (cmpi .sge (tbl j) (broadcastInDim S16777216x1 ![] Facts₀.bcast_S_S16777216x1 (constantI S_ 32 0#32)))
        (cmpi .sle (tbl j) (broadcastInDim S16777216x1 ![0, 1] Facts₀.bcast_S1x1_S16777216x1_0_1
          (broadcastInDim S1x1 ![1] Facts₀.bcast_S1_S1x1_1 (constantI S1 32 16777216#32)))))
      (constantI S_ 1 1#1) Facts₀.reducesTo_S16777216x1_S16777216_d1 Facts₀.h_S_)
    (Host.gather gather_S16777217_S16777216x1_S16777216_n_0_n_n_0_1_1 x (tbl j))
    (broadcastInDim S16777216 ![] Facts₀.bcast_S_S16777216 (constant S_ .f32 0x7FC00000#32))

/-- It is the library-level masked lookup. -/
theorem lookup_eq (x : S16777217.Idx → Elt F .f32) (j : IVec S16777216 32) :
    lookup x j = Cert.Lookup.take Facts₀.bcast_S_S16777216 Facts₀.bcast_S16777216_S16777216x1_0 Facts₀.bcast_S_S16777216x1
      Facts₀.bcast_S1_S1x1_1 Facts₀.bcast_S1x1_S16777216x1_0_1 Facts₀.reducesTo_S16777216x1_S16777216_d1 Facts₀.h_S_
      Facts₀.gather_S16777217_S16777216x1_S16777216_n_0_n_n_0_1_1_wf x (constant S_ .f32 0x7FC00000#32) j := rfl

/-- The nodal-value table: ones, overwritten at the free nodes by the free values and then at the boundary nodes by the
    imposed values, every index word wrapped first. -/
def vals (x1 : S16777215x1.Idx → Elt F .f32) (x2 : S2x1.Idx → Elt F .f32) (x4 : IVec S16777215 32) (x5 : IVec S2 32) :
    S16777217x1.Idx → Elt F .f32 :=
  Host.scatter scatter_S16777217x1_S2x1_S2x1_1_0_0_1 (fun _ b => b)
    (Host.scatter scatter_S16777217x1_S16777215x1_S16777215x1_1_0_0_1 (fun _ b => b)
      (broadcastInDim S16777217x1 ![] Facts₀.bcast_S_S16777217x1 (constant S_ .f32 0x3F800000#32))
      (broadcastInDim S16777215x1 ![0] Facts₀.bcast_S16777215_S16777215x1_0
        (select (cmpi .slt x4 (broadcastInDim S16777215 ![] Facts₀.bcast_S_S16777215 (constantI S_ 32 0#32)))
          (addi x4 (broadcastInDim S16777215 ![] Facts₀.bcast_S_S16777215 (constantI S_ 32 16777217#32))) x4))
      x1)
    (broadcastInDim S2x1 ![0] Facts₀.bcast_S2_S2x1_0
      (select (cmpi .slt x5 (broadcastInDim S2 ![] Facts₀.bcast_S_S2 (constantI S_ 32 0#32)))
        (addi x5 (broadcastInDim S2 ![] Facts₀.bcast_S_S2 (constantI S_ 32 16777217#32))) x5))
    x2

/-! ## One stretch at a time, from any contents W -/

variable (W : Valuation τ sig (Elt F))

/-- A stretch leaves a buffer none of its operations writes as it found it. -/
macro "skip_ops" : tactic => `(tactic| (
  refine StableHlo.after_of_forall_not_mem _ _ (List.forall_iff_forall_mem.mp ?_)
  simp only [hostOps0, hostOps0_1, hostOps0_2, hostOps0_3, hostOps0_4, hostOps0_5, hostOps0_6, hostOps0_7, hostOps0_8, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem skip2_v20 : StableHlo.after hostOps0_2 W (Proc.devRef .tc main_v20) = W (Proc.devRef .tc main_v20) := by skip_ops
theorem skip3_v20 : StableHlo.after hostOps0_3 W (Proc.devRef .tc main_v20) = W (Proc.devRef .tc main_v20) := by skip_ops
theorem skip4_v20 : StableHlo.after hostOps0_4 W (Proc.devRef .tc main_v20) = W (Proc.devRef .tc main_v20) := by skip_ops
theorem skip5_v20 : StableHlo.after hostOps0_5 W (Proc.devRef .tc main_v20) = W (Proc.devRef .tc main_v20) := by skip_ops
theorem skip6_v20 : StableHlo.after hostOps0_6 W (Proc.devRef .tc main_v20) = W (Proc.devRef .tc main_v20) := by skip_ops
theorem skip7_v20 : StableHlo.after hostOps0_7 W (Proc.devRef .tc main_v20) = W (Proc.devRef .tc main_v20) := by skip_ops
theorem skip4_v22 : StableHlo.after hostOps0_4 W (Proc.devRef .tc main_v22) = W (Proc.devRef .tc main_v22) := by skip_ops
theorem skip5_v22 : StableHlo.after hostOps0_5 W (Proc.devRef .tc main_v22) = W (Proc.devRef .tc main_v22) := by skip_ops
theorem skip6_v22 : StableHlo.after hostOps0_6 W (Proc.devRef .tc main_v22) = W (Proc.devRef .tc main_v22) := by skip_ops
theorem skip7_v22 : StableHlo.after hostOps0_7 W (Proc.devRef .tc main_v22) = W (Proc.devRef .tc main_v22) := by skip_ops
theorem skip0_arg0 : StableHlo.after hostOps0 W (Proc.devRef .tc main_arg0) = W (Proc.devRef .tc main_arg0) := by skip_ops
theorem skip1_arg0 : StableHlo.after hostOps0_1 W (Proc.devRef .tc main_arg0) = W (Proc.devRef .tc main_arg0) := by skip_ops
theorem skip1_v18 : StableHlo.after hostOps0_1 W (Proc.devRef .tc main_v18) = W (Proc.devRef .tc main_v18) := by skip_ops
theorem skip2_v18 : StableHlo.after hostOps0_2 W (Proc.devRef .tc main_v18) = W (Proc.devRef .tc main_v18) := by skip_ops
theorem skip3_v18 : StableHlo.after hostOps0_3 W (Proc.devRef .tc main_v18) = W (Proc.devRef .tc main_v18) := by skip_ops
theorem skip4_v18 : StableHlo.after hostOps0_4 W (Proc.devRef .tc main_v18) = W (Proc.devRef .tc main_v18) := by skip_ops
theorem skip5_v18 : StableHlo.after hostOps0_5 W (Proc.devRef .tc main_v18) = W (Proc.devRef .tc main_v18) := by skip_ops
theorem skip6_v18 : StableHlo.after hostOps0_6 W (Proc.devRef .tc main_v18) = W (Proc.devRef .tc main_v18) := by skip_ops
theorem skip6_v24 : StableHlo.after hostOps0_6 W (Proc.devRef .tc main_v24) = W (Proc.devRef .tc main_v24) := by skip_ops
theorem skip7_v24 : StableHlo.after hostOps0_7 W (Proc.devRef .tc main_v24) = W (Proc.devRef .tc main_v24) := by skip_ops
theorem skip1_v14 : StableHlo.after hostOps0_1 W (Proc.devRef .tc main_v14) = W (Proc.devRef .tc main_v14) := by skip_ops
theorem skip2_v14 : StableHlo.after hostOps0_2 W (Proc.devRef .tc main_v14) = W (Proc.devRef .tc main_v14) := by skip_ops
theorem skip3_v14 : StableHlo.after hostOps0_3 W (Proc.devRef .tc main_v14) = W (Proc.devRef .tc main_v14) := by skip_ops
theorem skip4_v14 : StableHlo.after hostOps0_4 W (Proc.devRef .tc main_v14) = W (Proc.devRef .tc main_v14) := by skip_ops
theorem skip5_v14 : StableHlo.after hostOps0_5 W (Proc.devRef .tc main_v14) = W (Proc.devRef .tc main_v14) := by skip_ops
theorem skip1_v16 : StableHlo.after hostOps0_1 W (Proc.devRef .tc main_v16) = W (Proc.devRef .tc main_v16) := by skip_ops
theorem skip2_v16 : StableHlo.after hostOps0_2 W (Proc.devRef .tc main_v16) = W (Proc.devRef .tc main_v16) := by skip_ops
theorem skip3_v16 : StableHlo.after hostOps0_3 W (Proc.devRef .tc main_v16) = W (Proc.devRef .tc main_v16) := by skip_ops
theorem skip4_v16 : StableHlo.after hostOps0_4 W (Proc.devRef .tc main_v16) = W (Proc.devRef .tc main_v16) := by skip_ops

/-- The first stretch: the two columns of the element table, the flattened coordinate table, the value table. -/
theorem first_v16 : (StableHlo.after hostOps0 W (Proc.devRef .tc main_v16) : IVec S16777216 32) = (shapeCast S16777216 (extractStridedSlice S16777216x1 ![0, 0] (W (Proc.devRef .tc main_arg3) : IVec S16777216x2 32) Facts₀.slices_S16777216x2_S16777216x1_0_0) Facts₀.shapeCasts_S16777216x1_S16777216) := by
  simp only [hostOps0]
  after_results_simp
  rfl
theorem first_v18 : (StableHlo.after hostOps0 W (Proc.devRef .tc main_v18) : IVec S16777216 32) = (shapeCast S16777216 (extractStridedSlice S16777216x1 ![0, 1] (W (Proc.devRef .tc main_arg3) : IVec S16777216x2 32) Facts₀.slices_S16777216x2_S16777216x1_0_1) Facts₀.shapeCasts_S16777216x1_S16777216) := by
  simp only [hostOps0]
  after_results_simp
  rfl
theorem first_v19 : (StableHlo.after hostOps0 W (Proc.devRef .tc main_v19) : S16777217.Idx → Elt F .f32) = (shapeCast S16777217 (W (Proc.devRef .tc main_arg0) : S16777217x1.Idx → Elt F .f32) Facts₀.shapeCasts_S16777217x1_S16777217) := by
  simp only [hostOps0]
  after_results_simp
  rfl
theorem first_v14 : (StableHlo.after hostOps0 W (Proc.devRef .tc main_v14) : S16777217x1.Idx → Elt F .f32)
    = (vals (W (Proc.devRef .tc main_arg1) : S16777215x1.Idx → Elt F .f32) (W (Proc.devRef .tc main_arg2) : S2x1.Idx → Elt F .f32) (W (Proc.devRef .tc main_arg4) : IVec S16777215 32) (W (Proc.devRef .tc main_arg5) : IVec S2 32)) := by
  simp only [hostOps0]
  after_results_simp
  rfl

/-- The single operations between the lookups: a table flattened. -/
theorem flat_v21 : (StableHlo.after hostOps0_2 W (Proc.devRef .tc main_v21) : S16777217.Idx → Elt F .f32) = (shapeCast S16777217 (W (Proc.devRef .tc main_arg0) : S16777217x1.Idx → Elt F .f32) Facts₀.shapeCasts_S16777217x1_S16777217) := by
  simp only [hostOps0_2]
  after_results_simp
  rfl
theorem flat_v23 : (StableHlo.after hostOps0_4 W (Proc.devRef .tc main_v23) : S16777217.Idx → Elt F .f32) = (shapeCast S16777217 (W (Proc.devRef .tc main_v14) : S16777217x1.Idx → Elt F .f32) Facts₀.shapeCasts_S16777217x1_S16777217) := by
  simp only [hostOps0_4]
  after_results_simp
  rfl
theorem flat_v25 : (StableHlo.after hostOps0_6 W (Proc.devRef .tc main_v25) : S16777217.Idx → Elt F .f32) = (shapeCast S16777217 (W (Proc.devRef .tc main_v14) : S16777217x1.Idx → Elt F .f32) Facts₀.shapeCasts_S16777217x1_S16777217) := by
  simp only [hostOps0_6]
  after_results_simp
  rfl

set_option maxHeartbeats 4000000 in
/-- The first lookup: from the flat table and the index words the stretch finds, the masked lookup. -/
theorem call0 : (StableHlo.after hostOps0_1 W (Proc.devRef .tc main_v20) : S16777216.Idx → Elt F .f32)
    = lookup (W (Proc.devRef .tc main_v19) : S16777217.Idx → Elt F .f32) (W (Proc.devRef .tc main_v16) : IVec S16777216 32) := by
  simp only [hostOps0_1]
  after_results_simp
  unfold lookup
  refine (cast_eq _ _).trans ?_
  refine congr (congr (congrArg select ?_) ?_) ?_
  · refine (cast_eq _ _).trans ((cast_eq _ _).trans ?_)
    refine congrArg₂ (fun a b => Host.reduce IntOp.andi a b Facts₀.reducesTo_S16777216x1_S16777216_d1 Facts₀.h_S_) ?_ ?_
    · rfl
    · rfl
  · rfl
  · rfl

set_option maxHeartbeats 4000000 in
/-- The second lookup: from the flat table and the index words the stretch finds, the masked lookup. -/
theorem call1 : (StableHlo.after hostOps0_3 W (Proc.devRef .tc main_v22) : S16777216.Idx → Elt F .f32)
    = lookup (W (Proc.devRef .tc main_v21) : S16777217.Idx → Elt F .f32) (W (Proc.devRef .tc main_v18) : IVec S16777216 32) := by
  simp only [hostOps0_3]
  after_results_simp
  unfold lookup
  refine (cast_eq _ _).trans ?_
  refine congr (congr (congrArg select ?_) ?_) ?_
  · refine (cast_eq _ _).trans ((cast_eq _ _).trans ?_)
    refine congrArg₂ (fun a b => Host.reduce IntOp.andi a b Facts₀.reducesTo_S16777216x1_S16777216_d1 Facts₀.h_S_) ?_ ?_
    · rfl
    · rfl
  · rfl
  · rfl

set_option maxHeartbeats 4000000 in
/-- The third lookup: from the flat table and the index words the stretch finds, the masked lookup. -/
theorem call2 : (StableHlo.after hostOps0_5 W (Proc.devRef .tc main_v24) : S16777216.Idx → Elt F .f32)
    = lookup (W (Proc.devRef .tc main_v23) : S16777217.Idx → Elt F .f32) (W (Proc.devRef .tc main_v16) : IVec S16777216 32) := by
  simp only [hostOps0_5]
  after_results_simp
  unfold lookup
  refine (cast_eq _ _).trans ?_
  refine congr (congr (congrArg select ?_) ?_) ?_
  · refine (cast_eq _ _).trans ((cast_eq _ _).trans ?_)
    refine congrArg₂ (fun a b => Host.reduce IntOp.andi a b Facts₀.reducesTo_S16777216x1_S16777216_d1 Facts₀.h_S_) ?_ ?_
    · rfl
    · rfl
  · rfl
  · rfl

set_option maxHeartbeats 4000000 in
/-- The fourth lookup: from the flat table and the index words the stretch finds, the masked lookup. -/
theorem call3 : (StableHlo.after hostOps0_7 W (Proc.devRef .tc main_v26) : S16777216.Idx → Elt F .f32)
    = lookup (W (Proc.devRef .tc main_v25) : S16777217.Idx → Elt F .f32) (W (Proc.devRef .tc main_v18) : IVec S16777216 32) := by
  simp only [hostOps0_7]
  after_results_simp
  unfold lookup
  refine (cast_eq _ _).trans ?_
  refine congr (congr (congrArg select ?_) ?_) ?_
  · refine (cast_eq _ _).trans ((cast_eq _ _).trans ?_)
    refine congrArg₂ (fun a b => Host.reduce IntOp.andi a b Facts₀.reducesTo_S16777216x1_S16777216_d1 Facts₀.h_S_) ?_ ?_
    · rfl
    · rfl
  · rfl
  · rfl

/-- The last stretch: each lookup folded into rows of 128. -/
theorem fold_v27 : (StableHlo.after hostOps0_8 W (Proc.devRef .tc main_v27) : S131072x128.Idx → Elt F .f32)
    = shapeCast S131072x128 (W (Proc.devRef .tc main_v20) : S16777216.Idx → Elt F .f32) Facts₀.shapeCasts_S16777216_S131072x128 := by
  simp only [hostOps0_8]
  after_results_simp
  rfl
theorem fold_v28 : (StableHlo.after hostOps0_8 W (Proc.devRef .tc main_v28) : S131072x128.Idx → Elt F .f32)
    = shapeCast S131072x128 (W (Proc.devRef .tc main_v22) : S16777216.Idx → Elt F .f32) Facts₀.shapeCasts_S16777216_S131072x128 := by
  simp only [hostOps0_8]
  after_results_simp
  rfl
theorem fold_v29 : (StableHlo.after hostOps0_8 W (Proc.devRef .tc main_v29) : S131072x128.Idx → Elt F .f32)
    = shapeCast S131072x128 (W (Proc.devRef .tc main_v24) : S16777216.Idx → Elt F .f32) Facts₀.shapeCasts_S16777216_S131072x128 := by
  simp only [hostOps0_8]
  after_results_simp
  rfl
theorem fold_v30 : (StableHlo.after hostOps0_8 W (Proc.devRef .tc main_v30) : S131072x128.Idx → Elt F .f32)
    = shapeCast S131072x128 (W (Proc.devRef .tc main_v26) : S16777216.Idx → Elt F .f32) Facts₀.shapeCasts_S16777216_S131072x128 := by
  simp only [hostOps0_8]
  after_results_simp
  rfl

end Cert.KernelIdeal.Prefix

end
-- ==== Proof.LibAfter.lean ====
import Idealize.ShloMosaic.Lib.StableHlo.Run

noncomputable section

namespace Cert.LibAfter

open Idealize.ShloMosaic Idealize.ShloMosaic.StableHlo

variable {τ : Topo} {sig : RefSig} {Val : EltTy → Type}

/-! ## The contents after two stretches of host operations

Running a line of host operations that is one stretch followed by another leaves what the second stretch leaves
when started from what the first one left. With it a long line is read one stretch at a time, each stretch from
an arbitrary starting valuation. -/

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The same for two stretches given as a list of two. -/
theorem after_flatten_pair (l₁ l₂ : List (HloOp τ sig Val)) (V : Valuation τ sig Val) :
    after (List.flatten [l₁, l₂]) V = after l₂ (after l₁ V) := by
  rw [List.flatten_cons, List.flatten_cons, List.flatten_nil, List.append_nil, after_append]

end Cert.LibAfter

end
-- ==== Proof.KernelInputs.lean ====
/-
  The four arrays the region is given, in terms of the program's arguments.

  The stretches of host operations before the region, chained: the first array is the fold of the masked lookup of
  column 0 of the element table in the flattened coordinate table, the second of column 1 there, the third and fourth
  of columns 0 and 1 in the flattened nodal-value table.
-/
import proofs.«425662_j6262062318225_3_alg».proof.Proof.KernelPrefix
import proofs.«425662_j6262062318225_3_alg».proof.Proof.LibAfter

set_option maxRecDepth 16384

noncomputable section

namespace Cert.KernelIdeal.Inputs

open Cert.KernelIdeal Cert.KernelIdeal.Gen Cert.KernelIdeal.Prefix
open Idealize.ShloMosaic Idealize.ShloMosaic.TcCoe Idealize.SL.Sem Idealize.ShloMosaic.StableHlo

variable {F : FTy → Type} [FloatOps F]
variable (m : (ℓ : Loc nD τ sig) → Buf (Elt F) ℓ)

/-- The first end nodes' coordinates. -/
theorem V_v27 (c : Dev nD) : (V m c main_v27 : S131072x128.Idx → Elt F .f32)
    = shapeCast S131072x128 (lookup (shapeCast S16777217 (m ((c.tc : Thread nD τ).loc main_arg0) : S16777217x1.Idx → Elt F .f32) Facts₀.shapeCasts_S16777217x1_S16777217) (shapeCast S16777216 (extractStridedSlice S16777216x1 ![0, 0] (m ((c.tc : Thread nD τ).loc main_arg3) : IVec S16777216x2 32) Facts₀.slices_S16777216x2_S16777216x1_0_0) Facts₀.shapeCasts_S16777216x1_S16777216)) Facts₀.shapeCasts_S16777216_S131072x128 := by
  dsimp only [V, V0]
  simp only [List.flatten_cons, List.flatten_nil, List.append_nil, Cert.LibAfter.after_append]
  rw [fold_v27, skip7_v20, skip6_v20, skip5_v20, skip4_v20, skip3_v20, skip2_v20, call0, first_v19, first_v16]

/-- The second end nodes' coordinates. -/
theorem V_v28 (c : Dev nD) : (V m c main_v28 : S131072x128.Idx → Elt F .f32)
    = shapeCast S131072x128 (lookup (shapeCast S16777217 (m ((c.tc : Thread nD τ).loc main_arg0) : S16777217x1.Idx → Elt F .f32) Facts₀.shapeCasts_S16777217x1_S16777217) (shapeCast S16777216 (extractStridedSlice S16777216x1 ![0, 1] (m ((c.tc : Thread nD τ).loc main_arg3) : IVec S16777216x2 32) Facts₀.slices_S16777216x2_S16777216x1_0_1) Facts₀.shapeCasts_S16777216x1_S16777216)) Facts₀.shapeCasts_S16777216_S131072x128 := by
  dsimp only [V, V0]
  simp only [List.flatten_cons, List.flatten_nil, List.append_nil, Cert.LibAfter.after_append]
  rw [fold_v28, skip7_v22, skip6_v22, skip5_v22, skip4_v22, call1, flat_v21, skip1_arg0, skip0_arg0,
    skip2_v18, skip1_v18, first_v18]

/-- The first end nodes' values. -/
theorem V_v29 (c : Dev nD) : (V m c main_v29 : S131072x128.Idx → Elt F .f32)
    = shapeCast S131072x128 (lookup (shapeCast S16777217 (vals (m ((c.tc : Thread nD τ).loc main_arg1) : S16777215x1.Idx → Elt F .f32) (m ((c.tc : Thread nD τ).loc main_arg2) : S2x1.Idx → Elt F .f32) (m ((c.tc : Thread nD τ).loc main_arg4) : IVec S16777215 32) (m ((c.tc : Thread nD τ).loc main_arg5) : IVec S2 32)) Facts₀.shapeCasts_S16777217x1_S16777217) (shapeCast S16777216 (extractStridedSlice S16777216x1 ![0, 0] (m ((c.tc : Thread nD τ).loc main_arg3) : IVec S16777216x2 32) Facts₀.slices_S16777216x2_S16777216x1_0_0) Facts₀.shapeCasts_S16777216x1_S16777216)) Facts₀.shapeCasts_S16777216_S131072x128 := by
  dsimp only [V, V0]
  simp only [List.flatten_cons, List.flatten_nil, List.append_nil, Cert.LibAfter.after_append]
  rw [fold_v29, skip7_v24, skip6_v24, call2, flat_v23, skip3_v14, skip2_v14, skip1_v14, first_v14,
    skip4_v16, skip3_v16, skip2_v16, skip1_v16, first_v16]

/-- The second end nodes' values. -/
theorem V_v30 (c : Dev nD) : (V m c main_v30 : S131072x128.Idx → Elt F .f32)
    = shapeCast S131072x128 (lookup (shapeCast S16777217 (vals (m ((c.tc : Thread nD τ).loc main_arg1) : S16777215x1.Idx → Elt F .f32) (m ((c.tc : Thread nD τ).loc main_arg2) : S2x1.Idx → Elt F .f32) (m ((c.tc : Thread nD τ).loc main_arg4) : IVec S16777215 32) (m ((c.tc : Thread nD τ).loc main_arg5) : IVec S2 32)) Facts₀.shapeCasts_S16777217x1_S16777217) (shapeCast S16777216 (extractStridedSlice S16777216x1 ![0, 1] (m ((c.tc : Thread nD τ).loc main_arg3) : IVec S16777216x2 32) Facts₀.slices_S16777216x2_S16777216x1_0_1) Facts₀.shapeCasts_S16777216x1_S16777216)) Facts₀.shapeCasts_S16777216_S131072x128 := by
  dsimp only [V, V0]
  simp only [List.flatten_cons, List.flatten_nil, List.append_nil, Cert.LibAfter.after_append]
  rw [fold_v30, call3, flat_v25, skip5_v14, skip4_v14, skip3_v14, skip2_v14, skip1_v14, first_v14,
    skip6_v18, skip5_v18, skip4_v18, skip3_v18, skip2_v18, skip1_v18, first_v18]

end Cert.KernelIdeal.Inputs

end
-- ==== Proof.Spec.lean ====
/-
  Linear interpolation at the element midpoint, as formulas.

  An element has two end nodes with coordinates c0, c1 and nodal values v0, v1. Its Gauss point is the midpoint
  x = c0/2 + c1/2, its Jacobian is (c1 - c0) times the weight 1, and the interpolated value at the Gauss point is
  v0 (x - c1)/(c0 - c1) + v1 (c0 - x)/(c0 - c1): the two linear shape functions at x weighting the nodal values.
  The formulas are written once over the float operations, with the quotient either the kernel's or the host's; on the
  extended reals both quotients are the same function, so the two spellings agree there.

  The end nodes of element q are rows of a table of 16777217 rows, addressed by the two index words in row q of the
  element table: a word is wrapped, read signed, and kept inside the table.
-/
import Idealize.ShloMosaic.PureOps.Ideal
import Idealize.ShloMosaic.Lib.ValueIdx
import proofs.«425662_j6262062318225_3_alg».proof.Proof.Words

noncomputable section

namespace Cert.Spec

open Idealize.ShloMosaic Idealize.ShloMosaic.ValueIdx Cert.Words

variable {F : FTy → Type} [FloatOps F]

/-- One half and one, as the programs spell them. -/
def half : F .f32 := FloatOps.ofBits .f32 0x3F000000#32
def one : F .f32 := FloatOps.ofBits .f32 0x3F800000#32

/-- The Gauss point of an element: the midpoint of its end coordinates. -/
def mid (c0 c1 : F .f32) : F .f32 := FloatOps.addf (FloatOps.mulf half c0) (FloatOps.mulf half c1)

/-- The element's Jacobian times the Gauss weight. -/
def jac (c0 c1 : F .f32) : F .f32 := FloatOps.mulf (FloatOps.subf c1 c0) one

/-- The nodal values weighted by the two shape functions at the Gauss point, with the kernel's quotient. -/
def interp (c0 c1 v0 v1 : F .f32) : F .f32 :=
  FloatOps.addf (FloatOps.mulf v0 (FloatOps.divf (FloatOps.subf (mid c0 c1) c1) (FloatOps.subf c0 c1)))
    (FloatOps.mulf v1 (FloatOps.divf (FloatOps.subf c0 (mid c0 c1)) (FloatOps.subf c0 c1)))

/-- The same with the host's quotient. -/
def interpHost (c0 c1 v0 v1 : F .f32) : F .f32 :=
  FloatOps.addf (FloatOps.mulf v0 (FloatOps.hostDivf (FloatOps.subf (mid c0 c1) c1) (FloatOps.subf c0 c1)))
    (FloatOps.mulf v1 (FloatOps.hostDivf (FloatOps.subf c0 (mid c0 c1)) (FloatOps.subf c0 c1)))

/-- On the extended reals the two quotients are one function. -/
theorem interpHost_ideal (c0 c1 v0 v1 : Ideal .f32) : interpHost (F := Ideal) c0 c1 v0 v1 = interp c0 c1 v0 v1 := rfl

/-! ## The three result arrays -/

abbrev SN1 : Shape := ⟨2, ![16777217, 1]⟩
abbrev SK2 : Shape := ⟨2, ![16777216, 2]⟩
abbrev SK : Shape := ⟨1, ![16777216]⟩
abbrev SK1 : Shape := ⟨2, ![16777216, 1]⟩

/-- The row of a one-column table that entry (q, k) of the element table addresses. -/
def rowAt {α : Type} (x : SN1.Idx → α) (E : IVec SK2 32) (q : Fin 16777216) (k : Fin 2) : α :=
  x (ix2 (node (E (ix2 q k))) (0 : Fin 1))

/-- The interpolated value of every element. -/
def resU (nodes vals : SN1.Idx → F .f32) (E : IVec SK2 32) : SK.Idx → F .f32 :=
  fun i => interp (rowAt nodes E (i 0) 0) (rowAt nodes E (i 0) 1) (rowAt vals E (i 0) 0) (rowAt vals E (i 0) 1)

/-- The Gauss point of every element, as a column. -/
def resX (nodes : SN1.Idx → F .f32) (E : IVec SK2 32) : SK1.Idx → F .f32 :=
  fun i => mid (rowAt nodes E (i 0) 0) (rowAt nodes E (i 0) 1)

/-- The weighted Jacobian of every element, as a column. -/
def resJ (nodes : SN1.Idx → F .f32) (E : IVec SK2 32) : SK1.Idx → F .f32 :=
  fun i => jac (rowAt nodes E (i 0) 0) (rowAt nodes E (i 0) 1)

end Cert.Spec

end
-- ==== Proof.KernelBlocks.lean ====
/-
  What the kernel's region leaves in its three output arrays.

  The region walks 64 points; at point t every window, input or output, holds rows 2048 t to 2048 t + 2047 of its
  [131072, 128] array, all 128 lanes. The body is pointwise: from the four input blocks (end coordinates c0, c1 and
  nodal values v0, v1 of 2048 x 128 elements) it stores the interpolated value, the midpoint and the weighted Jacobian
  of each element, entry by entry. So what point t writes back is block t of one whole-array function of the four
  input arrays, the 64 blocks cover the arrays, and each output array ends as that function.
-/
import proofs.«425662_j6262062318225_3_alg».proof.Proof.Gen.KernelIdeal.Frame
import proofs.«425662_j6262062318225_3_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## The body's stores, entry by entry -/

/-- The stored midpoint block, at an entry, is the midpoint of the two coordinate entries. -/
theorem pay3_apply (x0 x1 : Vec F S2048x128 .f32) (j : S2048x128.Idx) :
    k0_pay3 x0 x1 j = Cert.Spec.mid (x0 j) (x1 j) := by
  simp only [k0_pay3, k0_pay1, k0_pay2, shapeCast_self]
  rfl

/-- The stored Jacobian block, at an entry. -/
theorem pay4_apply (x0 x1 : Vec F S2048x128 .f32) (j : S2048x128.Idx) :
    k0_pay4 x0 x1 j = Cert.Spec.jac (x0 j) (x1 j) := by
  simp only [k0_pay4, k0_pay1, k0_pay2, shapeCast_self]
  rfl

/-- The stored interpolated block, at an entry. -/
theorem pay5_apply (x0 x1 x2 x3 : Vec F S2048x128 .f32) (j : S2048x128.Idx) :
    k0_pay5 x0 x1 x2 x3 j = Cert.Spec.interp (x0 j) (x1 j) (x2 j) (x3 j) := by
  simp only [k0_pay5, k0_pay3, k0_pay1, k0_pay2, shapeCast_self]
  rfl

/-! ## The whole-array functions -/

/-- Interpolated values, midpoints and Jacobians of all elements, laid out [131072, 128], from the four input arrays. -/
abbrev GU (a0 a1 a2 a3 : S131072x128.Idx → Elt F .f32) : S131072x128.Idx → Elt F .f32 :=
  fun i => Cert.Spec.interp (a0 i) (a1 i) (a2 i) (a3 i)
abbrev GX (a0 a1 : S131072x128.Idx → Elt F .f32) : S131072x128.Idx → Elt F .f32 :=
  fun i => Cert.Spec.mid (a0 i) (a1 i)
abbrev GJ (a0 a1 : S131072x128.Idx → Elt F .f32) : S131072x128.Idx → Elt F .f32 :=
  fun i => Cert.Spec.jac (a0 i) (a1 i)

/-! ## The index maps -/

/-- Every window's block at point t is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What point t writes back -/

theorem pay3_eq (x0 x1 : Vec F S2048x128 .f32) : k0_pay3 x0 x1 = fun j => Cert.Spec.mid (x0 j) (x1 j) :=
  funext (pay3_apply x0 x1)
theorem pay4_eq (x0 x1 : Vec F S2048x128 .f32) : k0_pay4 x0 x1 = fun j => Cert.Spec.jac (x0 j) (x1 j) :=
  funext (pay4_apply x0 x1)
theorem pay5_eq (x0 x1 x2 x3 : Vec F S2048x128 .f32) :
    k0_pay5 x0 x1 x2 x3 = fun j => Cert.Spec.interp (x0 j) (x1 j) (x2 j) (x3 j) :=
  funext (pay5_apply x0 x1 x2 x3)

/-- Whatever the four input arrays hold: the interpolated block stored at point t is block t of the whole-array
    function, because every window's block at t is the same rows of its array. -/
theorem coreU (A0 A1 A2 A3 : S131072x128.Idx → Elt F .f32) (t : Fin cfg0.N) :
    (cfg0.win 4).cut (grid0.coords t)
        (k0_pay5 (((cfg0.win 0).blk t).view.read (Elt F) A0) (((cfg0.win 1).blk t).view.read (Elt F) A1)
          (((cfg0.win 2).blk t).view.read (Elt F) A2) (((cfg0.win 3).blk t).view.read (Elt F) A3))
      = ((cfg0.win 4).blk t).view.read (Elt F) (GU A0 A1 A2 A3) := by
  rw [pay5_eq]
  obtain ⟨e00, e01, e10, e11, e20, e21, e30, e31, e40, e41, e50, e51, e60, e61⟩ := idx_facts t
  funext j
  show Cert.Spec.interp (A0 (((cfg0.win 0).blk t).view.emb j)) (A1 (((cfg0.win 1).blk t).view.emb j))
      (A2 (((cfg0.win 2).blk t).view.emb j)) (A3 (((cfg0.win 3).blk t).view.emb j))
    = Cert.Spec.interp (A0 (((cfg0.win 4).blk t).view.emb j)) (A1 (((cfg0.win 4).blk t).view.emb j))
      (A2 (((cfg0.win 4).blk t).view.emb j)) (A3 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 2048 + 1 * (j 0).val = win0_4.index t (0 : Fin 2) * 2048 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 2048 + 1 * (j 0).val = win0_4.index t (0 : Fin 2) * 2048 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 2048 + 1 * (j 0).val = win0_4.index t (0 : Fin 2) * 2048 + 1 * (j 0).val; omega
    | ⟨1, _⟩ => show win0_2.index t (1 : Fin 2) * 128 + 1 * (j 1).val = win0_4.index t (1 : Fin 2) * 128 + 1 * (j 1).val; omega
  have h3 : ((cfg0.win 3).blk t).view.emb j = ((cfg0.win 4).blk t).view.emb j := by
    funext a; apply Fin.ext
    match a with
    | ⟨0, _⟩ => show win0_3.index t (0 : Fin 2) * 2048 + 1 * (j 0).val = win0_4.index t (0 : Fin 2) * 2048 + 1 * (j 0).val; omega
    | ⟨1, _⟩ => show win0_3.index t (1 : Fin 2) * 128 + 1 * (j 1).val = win0_4.index t (1 : Fin 2) * 128 + 1 * (j 1).val; omega
  rw [h0, h1, h2, h3]

/-- The same for the midpoints. -/
theorem coreX (A0 A1 : S131072x128.Idx → Elt F .f32) (t : Fin cfg0.N) :
    (cfg0.win 5).cut (grid0.coords t)
        (k0_pay3 (((cfg0.win 0).blk t).view.read (Elt F) A0) (((cfg0.win 1).blk t).view.read (Elt F) A1))
      = ((cfg0.win 5).blk t).view.read (Elt F) (GX A0 A1) := by
  rw [pay3_eq]
  obtain ⟨e00, e01, e10, e11, e20, e21, e30, e31, e40, e41, e50, e51, e60, e61⟩ := idx_facts t
  funext j
  show Cert.Spec.mid (A0 (((cfg0.win 0).blk t).view.emb j)) (A1 (((cfg0.win 1).blk t).view.emb j))
    = Cert.Spec.mid (A0 (((cfg0.win 5).blk t).view.emb j)) (A1 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 2048 + 1 * (j 0).val = win0_5.index t (0 : Fin 2) * 2048 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 2048 + 1 * (j 0).val = win0_5.index t (0 : Fin 2) * 2048 + 1 * (j 0).val; omega
    | ⟨1, _⟩ => show win0_1.index t (1 : Fin 2) * 128 + 1 * (j 1).val = win0_5.index t (1 : Fin 2) * 128 + 1 * (j 1).val; omega
  rw [h0, h1]

/-- The same for the Jacobians. -/
theorem coreJ (A0 A1 : S131072x128.Idx → Elt F .f32) (t : Fin cfg0.N) :
    (cfg0.win 6).cut (grid0.coords t)
        (k0_pay4 (((cfg0.win 0).blk t).view.read (Elt F) A0) (((cfg0.win 1).blk t).view.read (Elt F) A1))
      = ((cfg0.win 6).blk t).view.read (Elt F) (GJ A0 A1) := by
  rw [pay4_eq]
  obtain ⟨e00, e01, e10, e11, e20, e21, e30, e31, e40, e41, e50, e51, e60, e61⟩ := idx_facts t
  funext j
  show Cert.Spec.jac (A0 (((cfg0.win 0).blk t).view.emb j)) (A1 (((cfg0.win 1).blk t).view.emb j))
    = Cert.Spec.jac (A0 (((cfg0.win 6).blk t).view.emb j)) (A1 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 2048 + 1 * (j 0).val = win0_6.index t (0 : Fin 2) * 2048 + 1 * (j 0).val; omega
    | ⟨1, _⟩ => show win0_0.index t (1 : Fin 2) * 128 + 1 * (j 1).val = win0_6.index t (1 : Fin 2) * 128 + 1 * (j 1).val; omega
  have h1 : ((cfg0.win 1).blk t).view.emb j = ((cfg0.win 6).blk t).view.emb j := by
    funext a; apply Fin.ext
    match a with
    | ⟨0, _⟩ => show win0_1.index t (0 : Fin 2) * 2048 + 1 * (j 0).val = win0_6.index t (0 : Fin 2) * 2048 + 1 * (j 0).val; omega
    | ⟨1, _⟩ => show win0_1.index t (1 : Fin 2) * 128 + 1 * (j 1).val = win0_6.index t (1 : Fin 2) * 128 + 1 * (j 1).val; omega
  rw [h0, h1]

theorem flushedU_eq (c : Dev nD) (t : Fin cfg0.N) :
    (dats m 0 c).flushed 4 t = ((cfg0.win 4).blk t).view.read (Elt F)
      (GU (V m c (Pipeline.arrRef spec0 0)) (V m c (Pipeline.arrRef spec0 1)) (V m c (Pipeline.arrRef spec0 2))
        (V m c (Pipeline.arrRef spec0 3))) := by
  show (cfg0.win 4).cut (grid0.coords t) ((dats m 0 c).after 4 t) = _
  rw [after0_4]
  unfold out0_4
  rw [View.canon_unit_zero hz]
  simp only [View.ld_unit_zero (S := S2048x128) hz]
  exact coreU (V m c (Pipeline.arrRef spec0 0)) (V m c (Pipeline.arrRef spec0 1)) (V m c (Pipeline.arrRef spec0 2))
    (V m c (Pipeline.arrRef spec0 3)) t

theorem flushedX_eq (c : Dev nD) (t : Fin cfg0.N) :
    (dats m 0 c).flushed 5 t = ((cfg0.win 5).blk t).view.read (Elt F)
      (GX (V m c (Pipeline.arrRef spec0 0)) (V m c (Pipeline.arrRef spec0 1))) := by
  show (cfg0.win 5).cut (grid0.coords t) ((dats m 0 c).after 5 t) = _
  rw [after0_5]
  unfold out0_5
  rw [View.canon_unit_zero hz]
  simp only [View.ld_unit_zero (S := S2048x128) hz]
  exact coreX (V m c (Pipeline.arrRef spec0 0)) (V m c (Pipeline.arrRef spec0 1)) t

theorem flushedJ_eq (c : Dev nD) (t : Fin cfg0.N) :
    (dats m 0 c).flushed 6 t = ((cfg0.win 6).blk t).view.read (Elt F)
      (GJ (V m c (Pipeline.arrRef spec0 0)) (V m c (Pipeline.arrRef spec0 1))) := by
  show (cfg0.win 6).cut (grid0.coords t) ((dats m 0 c).after 6 t) = _
  rw [after0_6]
  unfold out0_6
  rw [View.canon_unit_zero hz]
  simp only [View.ld_unit_zero (S := S2048x128) hz]
  exact coreJ (V m c (Pipeline.arrRef spec0 0)) (V m c (Pipeline.arrRef spec0 1)) t

/-! ## The 64 blocks cover each array -/

theorem mem_blk4 (t : Fin cfg0.N) (i : S131072x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v31_0).slice (win0_4.rect t)).set ↔ _
  rw [View.set_slice_whole, Rect.mem_set_unit]
  exact Iff.rfl
theorem mem_blk5 (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v31_1).slice (win0_5.rect t)).set ↔ _
  rw [View.set_slice_whole, Rect.mem_set_unit]
  exact Iff.rfl
theorem mem_blk6 (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v31_2).slice (win0_6.rect t)).set ↔ _
  rw [View.set_slice_whole, Rect.mem_set_unit]
  exact Iff.rfl

/-- The point whose block holds row r is r / 2048. -/
def pointOf (i : S131072x128.Idx) : Fin cfg0.N :=
  ⟨(i 0).val / 2048, by
    have h : (i 0).val < 131072 := (i 0).isLt
    have hN : cfg0.N = 64 := N_0
    rw [hN]; omega⟩

theorem cover4 (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  obtain ⟨e00, e01, e10, e11, e20, e21, e30, e31, e40, e41, e50, e51, e60, e61⟩ := idx_facts (pointOf i)
  have ht : (pointOf i).val = (i 0).val / 2048 := rfl
  refine ⟨pointOf i, flush0_4 _, ?_⟩
  rw [mem_blk4]
  intro a
  match a with
  | ⟨0, _⟩ => show win0_4.index (pointOf i) (0 : Fin 2) * 2048 ≤ (i 0).val ∧ (i 0).val < win0_4.index (pointOf i) (0 : Fin 2) * 2048 + 2048; omega
  | ⟨1, _⟩ => show win0_4.index (pointOf i) (1 : Fin 2) * 128 ≤ (i 1).val ∧ (i 1).val < win0_4.index (pointOf i) (1 : Fin 2) * 128 + 128; omega
theorem cover5 (i : S131072x128.Idx) : ∃ t : Fin cfg0.N, (cfg0.win 5).flush t = true ∧ i ∈ ((cfg0.win 5).blk t).view.set := by
  have hi0 : (i 0).val < 131072 := (i 0).isLt
  have hi1 : (i 1).val < 128 := (i 1).isLt
  obtain ⟨e00, e01, e10, e11, e20, e21, e30, e31, e40, e41, e50, e51, e60, e61⟩ := idx_facts (pointOf i)
  have ht : (pointOf i).val = (i 0).val / 2048 := rfl
  refine ⟨pointOf i, flush0_5 _, ?_⟩
  rw [mem_blk5]
  intro a
  match a with
  | ⟨0, _⟩ => show win0_5.index (pointOf i) (0 : Fin 2) * 2048 ≤ (i 0).val ∧ (i 0).val < win0_5.index (pointOf i) (0 : Fin 2) * 2048 + 2048; omega
  | ⟨1, _⟩ => show win0_5.index (pointOf i) (1 : Fin 2) * 128 ≤ (i 1).val ∧ (i 1).val < win0_5.index (pointOf i) (1 : Fin 2) * 128 + 128; omega
theorem cover6 (i : S131072x128.Idx) : ∃ t : Fin cfg0.N, (cfg0.win 6).flush t = true ∧ i ∈ ((cfg0.win 6).blk t).view.set := by
  have hi0 : (i 0).val < 131072 := (i 0).isLt
  have hi1 : (i 1).val < 128 := (i 1).isLt
  obtain ⟨e00, e01, e10, e11, e20, e21, e30, e31, e40, e41, e50, e51, e60, e61⟩ := idx_facts (pointOf i)
  have ht : (pointOf i).val = (i 0).val / 2048 := rfl
  refine ⟨pointOf i, flush0_6 _, ?_⟩
  rw [mem_blk6]
  intro a
  match a with
  | ⟨0, _⟩ => show win0_6.index (pointOf i) (0 : Fin 2) * 2048 ≤ (i 0).val ∧ (i 0).val < win0_6.index (pointOf i) (0 : Fin 2) * 2048 + 2048; omega
  | ⟨1, _⟩ => show win0_6.index (pointOf i) (1 : Fin 2) * 128 ≤ (i 1).val ∧ (i 1).val < win0_6.index (pointOf i) (1 : Fin 2) * 128 + 128; omega

/-! ## The output arrays after the region -/

theorem finalU (c : Dev nD) : (dats m 0 c).arrAt 4 cfg0.N = GU (V m c (Pipeline.arrRef spec0 0)) (V m c (Pipeline.arrRef spec0 1))
    (V m c (Pipeline.arrRef spec0 2)) (V m c (Pipeline.arrRef spec0 3)) :=
  (dats m 0 c).arrAt_eq_of_cover 4 _ (fun t _ => flushedU_eq m c t) cover4
theorem finalX (c : Dev nD) : (dats m 0 c).arrAt 5 cfg0.N = GX (V m c (Pipeline.arrRef spec0 0)) (V m c (Pipeline.arrRef spec0 1)) :=
  (dats m 0 c).arrAt_eq_of_cover 5 _ (fun t _ => flushedX_eq m c t) cover5
theorem finalJ (c : Dev nD) : (dats m 0 c).arrAt 6 cfg0.N = GJ (V m c (Pipeline.arrRef spec0 0)) (V m c (Pipeline.arrRef spec0 1)) :=
  (dats m 0 c).arrAt_eq_of_cover 6 _ (fun t _ => flushedJ_eq m c t) cover6

end Cert.KernelIdeal.Blocks

end
-- ==== Proof.KernelTail.lean ====
/-
  The kernel's three results.

  After the region the program unfolds each [131072, 128] output array: the interpolated values into a flat array of
  16777216 entries, the midpoints and the Jacobians each into a column of 16777216 entries. So every weakly fair run
  of the program ends with its three results at those unfoldings of the whole-array functions of the four arrays the
  region was given, and with its arguments unchanged.
-/
import proofs.«425662_j6262062318225_3_alg».proof.Proof.KernelBlocks
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Blocks

variable {F : FTy → Type} [FloatOps F]
variable (m : (ℓ : Loc nD τ sig) → Buf (Elt F) ℓ) (ρ : Dev nD → PrngReg)

/-- The interpolated values, unfolded flat. -/
theorem out_v32 (c : Dev nD) :
    (Pipeline.afterTail₀ cfgs (dats m) 0 (V0 m) [hostOps1] c main_v32 : S16777216.Idx → Elt F .f32)
      = shapeCast S16777216 (GU (V m c (Pipeline.arrRef spec0 0)) (V m c (Pipeline.arrRef spec0 1)) (V m c (Pipeline.arrRef spec0 2)) (V m c (Pipeline.arrRef spec0 3))) Facts₀.shapeCasts_S131072x128_S16777216 := by
  unfold Pipeline.afterTail₀
  show StableHlo.after hostOps1 _ (Proc.devRef .tc main_v32) = _
  after_results
  have hw : Pipeline.withArrays (cfgs 0).spec c (V0 m c) (fun w => (dats m 0 c).arrAt w (cfgs 0).N) (Proc.devRef .tc main_v31_0)
      = GU (V m c (Pipeline.arrRef spec0 0)) (V m c (Pipeline.arrRef spec0 1)) (V m c (Pipeline.arrRef spec0 2)) (V m c (Pipeline.arrRef spec0 3)) :=
    (Pipeline.withArrays_arr spec0 launch0.win.arr_inj c _ _ 4).trans (finalU m c)
  rw [hw]
  generalize GU (V m c (Pipeline.arrRef spec0 0)) (V m c (Pipeline.arrRef spec0 1)) (V m c (Pipeline.arrRef spec0 2)) (V m c (Pipeline.arrRef spec0 3)) = G
  rfl

/-- The midpoints, unfolded into a column. -/
theorem out_v33 (c : Dev nD) :
    (Pipeline.afterTail₀ cfgs (dats m) 0 (V0 m) [hostOps1] c main_v33 : S16777216x1.Idx → Elt F .f32)
      = shapeCast S16777216x1 (GX (V m c (Pipeline.arrRef spec0 0)) (V m c (Pipeline.arrRef spec0 1))) Facts₀.shapeCasts_S131072x128_S16777216x1 := by
  unfold Pipeline.afterTail₀
  show StableHlo.after hostOps1 _ (Proc.devRef .tc main_v33) = _
  after_results
  have hw : Pipeline.withArrays (cfgs 0).spec c (V0 m c) (fun w => (dats m 0 c).arrAt w (cfgs 0).N) (Proc.devRef .tc main_v31_1)
      = GX (V m c (Pipeline.arrRef spec0 0)) (V m c (Pipeline.arrRef spec0 1)) :=
    (Pipeline.withArrays_arr spec0 launch0.win.arr_inj c _ _ 5).trans (finalX m c)
  rw [hw]
  generalize GX (V m c (Pipeline.arrRef spec0 0)) (V m c (Pipeline.arrRef spec0 1)) = G
  rfl

/-- The Jacobians, unfolded into a column. -/
theorem out_v34 (c : Dev nD) :
    (Pipeline.afterTail₀ cfgs (dats m) 0 (V0 m) [hostOps1] c main_v34 : S16777216x1.Idx → Elt F .f32)
      = shapeCast S16777216x1 (GJ (V m c (Pipeline.arrRef spec0 0)) (V m c (Pipeline.arrRef spec0 1))) Facts₀.shapeCasts_S131072x128_S16777216x1 := by
  unfold Pipeline.afterTail₀
  show StableHlo.after hostOps1 _ (Proc.devRef .tc main_v34) = _
  after_results
  have hw : Pipeline.withArrays (cfgs 0).spec c (V0 m c) (fun w => (dats m 0 c).arrAt w (cfgs 0).N) (Proc.devRef .tc main_v31_2)
      = GJ (V m c (Pipeline.arrRef spec0 0)) (V m c (Pipeline.arrRef spec0 1)) :=
    (Pipeline.withArrays_arr spec0 launch0.win.arr_inj c _ _ 6).trans (finalJ m c)
  rw [hw]
  generalize GJ (V m c (Pipeline.arrRef spec0 0)) (V m c (Pipeline.arrRef spec0 1)) = G
  rfl

/-- The run, with its three results named. -/
theorem run : θ_run defs (onTc (τ := τ) (main (F := F))) ⟨m, fun _ => 0, ρ⟩ fun r => ∀ c : Dev nD,
      r.2.mem ((c.tc : Thread nD τ).loc main_v32) = shapeCast S16777216 (GU (V m c (Pipeline.arrRef spec0 0)) (V m c (Pipeline.arrRef spec0 1)) (V m c (Pipeline.arrRef spec0 2)) (V m c (Pipeline.arrRef spec0 3))) Facts₀.shapeCasts_S131072x128_S16777216
      ∧ r.2.mem ((c.tc : Thread nD τ).loc main_v33) = shapeCast S16777216x1 (GX (V m c (Pipeline.arrRef spec0 0)) (V m c (Pipeline.arrRef spec0 1))) Facts₀.shapeCasts_S131072x128_S16777216x1
      ∧ r.2.mem ((c.tc : Thread nD τ).loc main_v34) = shapeCast S16777216x1 (GJ (V m c (Pipeline.arrRef spec0 0)) (V m c (Pipeline.arrRef spec0 1))) Facts₀.shapeCasts_S131072x128_S16777216x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v32 (Pipeline.mem_restRefs_of main_v32 (by decide) (by decide))).trans (out_v32 m c),
      ((h c).2 main_v33 (Pipeline.mem_restRefs_of main_v33 (by decide) (by decide))).trans (out_v33 m c),
      ((h c).2 main_v34 (Pipeline.mem_restRefs_of main_v34 (by decide) (by decide))).trans (out_v34 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.Reshape.lean ====
/-
  Elements laid out lane-dense.

  The 16777216 elements are handed to the region as a [131072, 128] array: element e sits at row e / 128, lane e % 128,
  and entry (r, l) holds element 128 r + l. Read at an index: the fold of a flat array, and the unfolding of a
  [131072, 128] array into a flat array or into a one-column array.
-/
import Idealize.ShloMosaic.PureOps.Ideal
import Idealize.ShloMosaic.Lib.ValueIdx
import Idealize.ShloMosaic.Lib.Pipeline.Value

noncomputable section

namespace Cert.Reshape

open Idealize.ShloMosaic Idealize.ShloMosaic.ValueIdx

variable {α : Type}

/-- A flat array folded into rows of 128 reads, at (r, l), entry 128 r + l. -/
theorem fold_apply (h : (⟨1, ![16777216]⟩ : Shape).ShapeCasts ⟨2, ![131072, 128]⟩)
    (T : (⟨1, ![16777216]⟩ : Shape).Idx → α) (r : Fin 131072) (l : Fin 128) :
    shapeCast ⟨2, ![131072, 128]⟩ T h (ix2 r l) = T (ix1 ⟨r.val * 128 + l.val, by omega⟩) :=
  shapeCast_apply T h (ix2 r l) (ix1 ⟨r.val * 128 + l.val, by omega⟩) (by
    rewrite [Shape.rowMajor_val_two, Shape.rowMajor_val_one]
    rfl)

/-- A [131072, 128] array unfolded into a flat array reads, at e, entry (e / 128, e % 128). -/
theorem unfold_apply (h : (⟨2, ![131072, 128]⟩ : Shape).ShapeCasts ⟨1, ![16777216]⟩)
    (g : (⟨2, ![131072, 128]⟩ : Shape).Idx → α) (e : Fin 16777216) :
    shapeCast ⟨1, ![16777216]⟩ g h (ix1 e) = g (ix2 ⟨e.val / 128, by omega⟩ ⟨e.val % 128, by omega⟩) :=
  shapeCast_apply g h (ix1 e) (ix2 ⟨e.val / 128, by omega⟩ ⟨e.val % 128, by omega⟩) (by
    rewrite [Shape.rowMajor_val_two, Shape.rowMajor_val_one]
    show e.val / 128 * 128 + e.val % 128 = e.val
    omega)

/-- The same unfolded into one column: at (e, 0), entry (e / 128, e % 128). -/
theorem unfoldCol_apply (h : (⟨2, ![131072, 128]⟩ : Shape).ShapeCasts ⟨2, ![16777216, 1]⟩)
    (g : (⟨2, ![131072, 128]⟩ : Shape).Idx → α) (e : Fin 16777216) :
    shapeCast ⟨2, ![16777216, 1]⟩ g h (ix2 e (0 : Fin 1)) = g (ix2 ⟨e.val / 128, by omega⟩ ⟨e.val % 128, by omega⟩) :=
  shapeCast_apply g h (ix2 e (0 : Fin 1)) (ix2 ⟨e.val / 128, by omega⟩ ⟨e.val % 128, by omega⟩) (by
    rewrite [Shape.rowMajor_val_two, Shape.rowMajor_val_two]
    show e.val / 128 * 128 + e.val % 128 = e.val * 1 + 0
    omega)

/-- Folding then reading the lane-dense entry of element e gives back entry e. -/
theorem fold_at (h : (⟨1, ![16777216]⟩ : Shape).ShapeCasts ⟨2, ![131072, 128]⟩)
    (T : (⟨1, ![16777216]⟩ : Shape).Idx → α) (e : Fin 16777216) :
    shapeCast ⟨2, ![131072, 128]⟩ T h (ix2 ⟨e.val / 128, by omega⟩ ⟨e.val % 128, by omega⟩) = T (ix1 e) := by
  rw [fold_apply]
  congr 2
  apply Fin.ext
  show e.val / 128 * 128 + e.val % 128 = e.val
  omega

end Cert.Reshape

end
-- ==== Proof.KernelValue.lean ====
/-
  The kernel's results, element by element.

  Element e sits at row e / 128, lane e % 128 of the arrays the region works on. There each of the four input arrays
  holds the masked lookup of an index word of element e; when the word is in range the lookup is the table's row at
  the wrapped word. So for an element table whose words are all in range, the three results are the interpolated
  value, the midpoint and the weighted Jacobian of every element, computed from the rows its two words address.
-/
import proofs.«425662_j6262062318225_3_alg».proof.Proof.KernelInputs
import proofs.«425662_j6262062318225_3_alg».proof.Proof.KernelTail
import proofs.«425662_j6262062318225_3_alg».proof.Proof.Reshape
import proofs.«425662_j6262062318225_3_alg».proof.Proof.Spec

set_option maxRecDepth 16384

noncomputable section

namespace Cert.KernelIdeal.Value

open Cert.KernelIdeal Cert.KernelIdeal.Gen Cert.KernelIdeal.Prefix Cert.KernelIdeal.Inputs Cert.KernelIdeal.Blocks
open Idealize.ShloMosaic Idealize.ShloMosaic.TcCoe Idealize.SL.Sem Idealize.ShloMosaic.ValueIdx
open Cert.Words Cert.Spec

variable {F : FTy → Type} [FloatOps F]

/-- The folded masked lookup of column k of the element table E in the table X, at the place of element e: for a word
    in range, the row of X that word addresses. -/
theorem entry (X : S16777217x1.Idx → Elt F .f32) (E : IVec S16777216x2 32) (k : Fin 2)
    (hs : S16777216x2.Slices ![0, k.val] S16777216x1) (e : Fin 16777216) (hr : InRange (E (ix2 e k))) :
    shapeCast S131072x128 (lookup (shapeCast S16777217 X Facts₀.shapeCasts_S16777217x1_S16777217)
        (shapeCast S16777216 (extractStridedSlice S16777216x1 ![0, k.val] E hs) Facts₀.shapeCasts_S16777216x1_S16777216))
      Facts₀.shapeCasts_S16777216_S131072x128 (ix2 ⟨e.val / 128, by omega⟩ ⟨e.val % 128, by omega⟩) = rowAt X E e k := by
  rw [Cert.Reshape.fold_at, lookup_eq]
  rw [Cert.Lookup.take_apply _ _ _ _ _ _ _ _ _ _ _ e (by rw [Cert.Lookup.column_apply]; exact hr)]
  rw [Cert.Lookup.flat_apply, Cert.Lookup.column_apply]
  rfl

theorem entry0 (X : S16777217x1.Idx → Elt F .f32) (E : IVec S16777216x2 32) (e : Fin 16777216) (hr : InRange (E (ix2 e (0 : Fin 2)))) :
    shapeCast S131072x128 (lookup (shapeCast S16777217 X Facts₀.shapeCasts_S16777217x1_S16777217)
        (shapeCast S16777216 (extractStridedSlice S16777216x1 ![0, 0] E Facts₀.slices_S16777216x2_S16777216x1_0_0) Facts₀.shapeCasts_S16777216x1_S16777216))
      Facts₀.shapeCasts_S16777216_S131072x128 (ix2 ⟨e.val / 128, by omega⟩ ⟨e.val % 128, by omega⟩) = rowAt X E e 0 :=
  entry X E 0 Facts₀.slices_S16777216x2_S16777216x1_0_0 e hr
theorem entry1 (X : S16777217x1.Idx → Elt F .f32) (E : IVec S16777216x2 32) (e : Fin 16777216) (hr : InRange (E (ix2 e (1 : Fin 2)))) :
    shapeCast S131072x128 (lookup (shapeCast S16777217 X Facts₀.shapeCasts_S16777217x1_S16777217)
        (shapeCast S16777216 (extractStridedSlice S16777216x1 ![0, 1] E Facts₀.slices_S16777216x2_S16777216x1_0_1) Facts₀.shapeCasts_S16777216x1_S16777216))
      Facts₀.shapeCasts_S16777216_S131072x128 (ix2 ⟨e.val / 128, by omega⟩ ⟨e.val % 128, by omega⟩) = rowAt X E e 1 :=
  entry X E 1 Facts₀.slices_S16777216x2_S16777216x1_0_1 e hr

variable (m : (ℓ : Loc nD τ sig) → Buf (Elt F) ℓ)

/-- The interpolated values. -/
theorem resU_eq (c : Dev nD) (hr : ∀ i, InRange ((m ((c.tc : Thread nD τ).loc main_arg3) : IVec S16777216x2 32) i)) :
    shapeCast S16777216 (GU (V m c (Pipeline.arrRef spec0 0)) (V m c (Pipeline.arrRef spec0 1)) (V m c (Pipeline.arrRef spec0 2)) (V m c (Pipeline.arrRef spec0 3))) Facts₀.shapeCasts_S131072x128_S16777216
      = resU (m ((c.tc : Thread nD τ).loc main_arg0) : S16777217x1.Idx → Elt F .f32) (vals (m ((c.tc : Thread nD τ).loc main_arg1) : S16777215x1.Idx → Elt F .f32) (m ((c.tc : Thread nD τ).loc main_arg2) : S2x1.Idx → Elt F .f32) (m ((c.tc : Thread nD τ).loc main_arg4) : IVec S16777215 32) (m ((c.tc : Thread nD τ).loc main_arg5) : IVec S2 32)) (m ((c.tc : Thread nD τ).loc main_arg3) : IVec S16777216x2 32) := by
  have a0 : (V m c (Pipeline.arrRef spec0 0) : S131072x128.Idx → Elt F .f32) = _ := V_v27 m c
  have a1 : (V m c (Pipeline.arrRef spec0 1) : S131072x128.Idx → Elt F .f32) = _ := V_v28 m c
  have a2 : (V m c (Pipeline.arrRef spec0 2) : S131072x128.Idx → Elt F .f32) = _ := V_v29 m c
  have a3 : (V m c (Pipeline.arrRef spec0 3) : S131072x128.Idx → Elt F .f32) = _ := V_v30 m c
  rw [a0, a1, a2, a3]
  funext i
  obtain ⟨e, rfl⟩ : ∃ e : Fin 16777216, i = ix1 e := ⟨i 0, eq_ix1 i⟩
  rw [Cert.Reshape.unfold_apply]
  dsimp only [GU]
  rw [entry0 _ _ e (hr _), entry1 _ _ e (hr _), entry0 _ _ e (hr _), entry1 _ _ e (hr _)]
  rfl

/-- The midpoints. -/
theorem resX_eq (c : Dev nD) (hr : ∀ i, InRange ((m ((c.tc : Thread nD τ).loc main_arg3) : IVec S16777216x2 32) i)) :
    shapeCast S16777216x1 (GX (V m c (Pipeline.arrRef spec0 0)) (V m c (Pipeline.arrRef spec0 1))) Facts₀.shapeCasts_S131072x128_S16777216x1
      = resX (m ((c.tc : Thread nD τ).loc main_arg0) : S16777217x1.Idx → Elt F .f32) (m ((c.tc : Thread nD τ).loc main_arg3) : IVec S16777216x2 32) := by
  have a0 : (V m c (Pipeline.arrRef spec0 0) : S131072x128.Idx → Elt F .f32) = _ := V_v27 m c
  have a1 : (V m c (Pipeline.arrRef spec0 1) : S131072x128.Idx → Elt F .f32) = _ := V_v28 m c
  rw [a0, a1]
  funext i
  obtain ⟨e, z, rfl⟩ : ∃ (e : Fin 16777216) (z : Fin 1), i = ix2 e z := ⟨i 0, i 1, eq_ix2 i⟩
  obtain rfl : z = 0 := Subsingleton.elim _ _
  rw [Cert.Reshape.unfoldCol_apply]
  dsimp only [GX]
  rw [entry0 _ _ e (hr _), entry1 _ _ e (hr _)]
  rfl

/-- The weighted Jacobians. -/
theorem resJ_eq (c : Dev nD) (hr : ∀ i, InRange ((m ((c.tc : Thread nD τ).loc main_arg3) : IVec S16777216x2 32) i)) :
    shapeCast S16777216x1 (GJ (V m c (Pipeline.arrRef spec0 0)) (V m c (Pipeline.arrRef spec0 1))) Facts₀.shapeCasts_S131072x128_S16777216x1
      = resJ (m ((c.tc : Thread nD τ).loc main_arg0) : S16777217x1.Idx → Elt F .f32) (m ((c.tc : Thread nD τ).loc main_arg3) : IVec S16777216x2 32) := by
  have a0 : (V m c (Pipeline.arrRef spec0 0) : S131072x128.Idx → Elt F .f32) = _ := V_v27 m c
  have a1 : (V m c (Pipeline.arrRef spec0 1) : S131072x128.Idx → Elt F .f32) = _ := V_v28 m c
  rw [a0, a1]
  funext i
  obtain ⟨e, z, rfl⟩ : ∃ (e : Fin 16777216) (z : Fin 1), i = ix2 e z := ⟨i 0, i 1, eq_ix2 i⟩
  obtain rfl : z = 0 := Subsingleton.elim _ _
  rw [Cert.Reshape.unfoldCol_apply]
  dsimp only [GJ]
  rw [entry0 _ _ e (hr _), entry1 _ _ e (hr _)]
  rfl

end Cert.KernelIdeal.Value

end
-- ==== Proof.RefValue.lean ====
/-
  What the reference computes, index by index.

  The reference looks the end nodes of every element up directly in the [16777217, 1] coordinate table and in the
  nodal-value table (the scattered one), wrapping each index word and letting the gather keep it inside the table,
  and then computes, per element, the midpoint, the weighted Jacobian and the interpolated value with the host's
  quotient. Read at an index these are the formulas of the specification at the rows the element table addresses.
-/
import proofs.«425662_j6262062318225_3_alg».proof.Proof.Gen.ReferenceIdeal.Read
import proofs.«425662_j6262062318225_3_alg».proof.Proof.Lookup
import proofs.«425662_j6262062318225_3_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Words Cert.Spec

variable {F : FTy → Type} [FloatOps F]

/-! ## The four lookups -/

/-- The first end node's coordinate of element q. -/
theorem v27_apply (x0 : S16777217x1.Idx → Elt F .f32) (x3 : IVec S16777216x2 32) (q : Fin 16777216) :
    val_main_v27 (F := F) x0 x3 (ix1 q) = rowAt x0 x3 q 0 := by
  show Host.gather (Cert.Gather2.dims 16777217 16777216 Facts₀.gather_S16777217x1_S16777216x2_S16777216_n_01_n_n_01_1_11_wf) x0
      (Cert.Lookup.table2 Facts₀.bcast_S_S16777216 Facts₀.bcast_S16777216_S16777216x1_0
        Facts₀.concatenates_S16777216x1_S16777216x1_S16777216x2_d1
        (shapeCast S16777216 (extractStridedSlice S16777216x1 ![0, (0 : Fin 2).val] x3 Facts₀.slices_S16777216x2_S16777216x1_0_0)
          Facts₀.shapeCasts_S16777216x1_S16777216)
        (val_main_v25 (F := F))) (ix1 q) = _
  rw [Cert.Lookup.pick2_apply, Cert.Lookup.column_apply]
  rfl

/-- The second end node's coordinate of element q. -/
theorem v40_apply (x0 : S16777217x1.Idx → Elt F .f32) (x3 : IVec S16777216x2 32) (q : Fin 16777216) :
    val_main_v40 (F := F) x0 x3 (ix1 q) = rowAt x0 x3 q 1 := by
  show Host.gather (Cert.Gather2.dims 16777217 16777216 Facts₀.gather_S16777217x1_S16777216x2_S16777216_n_01_n_n_01_1_11_wf) x0
      (Cert.Lookup.table2 Facts₀.bcast_S_S16777216 Facts₀.bcast_S16777216_S16777216x1_0
        Facts₀.concatenates_S16777216x1_S16777216x1_S16777216x2_d1
        (shapeCast S16777216 (extractStridedSlice S16777216x1 ![0, (1 : Fin 2).val] x3 Facts₀.slices_S16777216x2_S16777216x1_0_1)
          Facts₀.shapeCasts_S16777216x1_S16777216)
        (val_main_v38 (F := F))) (ix1 q) = _
  rw [Cert.Lookup.pick2_apply, Cert.Lookup.column_apply]
  rfl

/-- The first end node's value of element q. -/
theorem v67_apply (x1 : S16777215x1.Idx → Elt F .f32) (x2 : S2x1.Idx → Elt F .f32) (x3 : IVec S16777216x2 32)
    (x4 : IVec S16777215 32) (x5 : IVec S2 32) (q : Fin 16777216) :
    val_main_v67 (F := F) x1 x2 x3 x4 x5 (ix1 q) = rowAt (val_main_v14 (F := F) x1 x2 x4 x5) x3 q 0 := by
  show Host.gather (Cert.Gather2.dims 16777217 16777216 Facts₀.gather_S16777217x1_S16777216x2_S16777216_n_01_n_n_01_1_11_wf)
      (val_main_v14 (F := F) x1 x2 x4 x5)
      (Cert.Lookup.table2 Facts₀.bcast_S_S16777216 Facts₀.bcast_S16777216_S16777216x1_0
        Facts₀.concatenates_S16777216x1_S16777216x1_S16777216x2_d1
        (shapeCast S16777216 (extractStridedSlice S16777216x1 ![0, (0 : Fin 2).val] x3 Facts₀.slices_S16777216x2_S16777216x1_0_0)
          Facts₀.shapeCasts_S16777216x1_S16777216)
        (val_main_v65 (F := F))) (ix1 q) = _
  rw [Cert.Lookup.pick2_apply, Cert.Lookup.column_apply]
  rfl

/-- The second end node's value of element q. -/
theorem v80_apply (x1 : S16777215x1.Idx → Elt F .f32) (x2 : S2x1.Idx → Elt F .f32) (x3 : IVec S16777216x2 32)
    (x4 : IVec S16777215 32) (x5 : IVec S2 32) (q : Fin 16777216) :
    val_main_v80 (F := F) x1 x2 x3 x4 x5 (ix1 q) = rowAt (val_main_v14 (F := F) x1 x2 x4 x5) x3 q 1 := by
  show Host.gather (Cert.Gather2.dims 16777217 16777216 Facts₀.gather_S16777217x1_S16777216x2_S16777216_n_01_n_n_01_1_11_wf)
      (val_main_v14 (F := F) x1 x2 x4 x5)
      (Cert.Lookup.table2 Facts₀.bcast_S_S16777216 Facts₀.bcast_S16777216_S16777216x1_0
        Facts₀.concatenates_S16777216x1_S16777216x1_S16777216x2_d1
        (shapeCast S16777216 (extractStridedSlice S16777216x1 ![0, (1 : Fin 2).val] x3 Facts₀.slices_S16777216x2_S16777216x1_0_1)
          Facts₀.shapeCasts_S16777216x1_S16777216)
        (val_main_v78 (F := F))) (ix1 q) = _
  rw [Cert.Lookup.pick2_apply, Cert.Lookup.column_apply]
  rfl

/-! ## The three results -/

/-- The interpolated values, with the host's quotient. -/
theorem resU_eq (x0 : S16777217x1.Idx → Elt F .f32) (x1 : S16777215x1.Idx → Elt F .f32) (x2 : S2x1.Idx → Elt F .f32)
    (x3 : IVec S16777216x2 32) (x4 : IVec S16777215 32) (x5 : IVec S2 32) :
    val_main_v83 (F := F) x0 x1 x2 x3 x4 x5 = fun i =>
      interpHost (rowAt x0 x3 (i 0) 0) (rowAt x0 x3 (i 0) 1)
        (rowAt (val_main_v14 (F := F) x1 x2 x4 x5) x3 (i 0) 0) (rowAt (val_main_v14 (F := F) x1 x2 x4 x5) x3 (i 0) 1) := by
  funext i
  obtain ⟨q, rfl⟩ : ∃ q : Fin 16777216, i = ix1 q := ⟨i 0, eq_ix1 i⟩
  show interpHost (val_main_v27 (F := F) x0 x3 (ix1 q)) (val_main_v40 (F := F) x0 x3 (ix1 q))
      (val_main_v67 (F := F) x1 x2 x3 x4 x5 (ix1 q)) (val_main_v80 (F := F) x1 x2 x3 x4 x5 (ix1 q)) = _
  rw [v27_apply, v40_apply, v67_apply, v80_apply]

/-- The midpoints, as a column. -/
theorem resX_eq (x0 : S16777217x1.Idx → Elt F .f32) (x3 : IVec S16777216x2 32) :
    val_main_v84 (F := F) x0 x3 = resX x0 x3 := by
  funext i
  rw [val_main_v84_apply]
  obtain ⟨q, hq⟩ : ∃ q : Fin 16777216, idx_main_v84 i = ix1 q := ⟨⟨(i 0).val, (i 0).isLt⟩, by
    funext a
    match a with
    | ⟨0, _⟩ => rfl⟩
  have hq0 : (i 0).val = q.val := (congrArg (fun k : S16777216.Idx => (k 0).val) hq)
  rw [hq]
  show mid (val_main_v27 (F := F) x0 x3 (ix1 q)) (val_main_v40 (F := F) x0 x3 (ix1 q)) = _
  rw [v27_apply, v40_apply]
  have : (⟨(i 0).val, (i 0).isLt⟩ : Fin 16777216) = q := Fin.ext hq0
  subst this
  rfl

/-- The weighted Jacobians, as a column. -/
theorem resJ_eq (x0 : S16777217x1.Idx → Elt F .f32) (x3 : IVec S16777216x2 32) :
    val_main_v54 (F := F) x0 x3 = resJ x0 x3 := by
  funext i
  rw [val_main_v54_apply, val_main_v52_apply]
  obtain ⟨q, hq⟩ : ∃ q : Fin 16777216, idx_main_v52 i = ix1 q := ⟨⟨(i 0).val, (i 0).isLt⟩, by
    funext a
    match a with
    | ⟨0, _⟩ => rfl⟩
  have hq0 : (i 0).val = q.val := (congrArg (fun k : S16777216.Idx => (k 0).val) hq)
  rw [hq]
  show jac (val_main_v27 (F := F) x0 x3 (ix1 q)) (val_main_v40 (F := F) x0 x3 (ix1 q)) = _
  rw [v27_apply, v40_apply]
  have : (⟨(i 0).val, (i 0).isLt⟩ : Fin 16777216) = q := Fin.ext hq0
  subst this
  rfl

end Cert.ReferenceIdeal.RefValue

end
-- ==== Proof.PreRange.lean ====
/-
  The precondition, decoded.

  The stated precondition ends with a test that every index word of the element table is at least -16777217 and below
  16777217, reduced by and over the whole table and joined by and with the finiteness tests. When the precondition
  holds each of those joined bits is one, so every entry of the element table is a word in range.
-/
import proofs.«425662_j6262062318225_3_alg».proof.Pre_finite_inputs
import proofs.«425662_j6262062318225_3_alg».proof.Proof.Gen.Pre_finite_inputs
import proofs.«425662_j6262062318225_3_alg».proof.Proof.Words
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs Cert.Words

variable {F : FTy → Type} [FloatOps F]

instance : Subsingleton S_.Idx := ⟨fun a b => funext fun d => d.elim0⟩

/-- Where the precondition holds, every entry of the element table is a word in range. -/
theorem inRange_of_pre (a0 : FVec F S16777217x1 .f32) (a1 : FVec F S16777215x1 .f32) (a2 : FVec F S2x1 .f32)
    (E : IVec S16777216x2 32) (a4 : IVec S16777215 32) (a5 : IVec S2 32)
    (h : Cert.Pre_finite_inputs.fn (F := F) a0 a1 a2 E a4 a5 = fun _ => 1#1) (i : S16777216x2.Idx) : InRange (E i) := by
  have h0 := congrFun h ix0
  dsimp only [Cert.Pre_finite_inputs.fn, Cert.Pre_finite_inputs.fn_part1] at h0
  obtain ⟨-, h19⟩ := IntOp.andi_eq_one.1 h0
  have hi := Host.reduce_andi_all _ _ _ _ _ h19 i
  obtain ⟨hge, hlt⟩ := IntOp.andi_eq_one.1 hi
  have hge' : (4278190079#32 : BitVec 32).sle (E i) = true := by
    have : IntOp.cmpi .sge (E i) 4278190079#32 = 1#1 := hge
    unfold IntOp.cmpi at this
    exact (StableHlo.Predicate.ofBool_eq_one_iff _).1 this
  have hlt' : (E i).slt 16777217#32 = true := by
    have : IntOp.cmpi .slt (E i) 16777217#32 = 1#1 := hlt
    unfold IntOp.cmpi at this
    exact (StableHlo.Predicate.ofBool_eq_one_iff _).1 this
  rw [BitVec.sle_iff_toInt_le] at hge'
  rw [BitVec.slt_iff_toInt_lt] at hlt'
  have c1 : (4278190079#32 : BitVec 32).toInt = -16777217 := by decide
  have c2 : (16777217#32 : BitVec 32).toInt = 16777217 := by decide
  rw [c1] at hge'
  rw [c2] at hlt'
  exact ⟨hge', hlt'⟩

end Cert.PreRange

end
-- ==== Proof.lean ====
/-
  Linear interpolation at the element midpoints of a one-dimensional mesh: the tiled kernel against the plain
  computation, on the extended reals.

  Both programs build the same nodal-value table by the same two scatters and look the two end nodes of every element
  up in the coordinate table and in that value table. They differ in the lookup: the kernel's side flattens a table and
  uses a masked one-axis lookup that answers a fill value for an index word out of range, the other side indexes the
  one-column table directly and lets the gather clamp. For an element table whose words all address a node (from minus
  the node count up to the node count, exclusive: the stated precondition) the mask passes, nothing is clamped, and
  both read the same rows. The kernel's region then computes, entry by entry on 64 blocks that tile the arrays, the
  very formulas the other side computes array by array; on the extended reals the kernel's quotient and the host's
  are one function. The frames are the generated ones; the idealization rewrote nothing.
-/
import proofs.«425662_j6262062318225_3_alg».proof.Defs
import proofs.«425662_j6262062318225_3_alg».proof.Proof.Gen.Kernel
import proofs.«425662_j6262062318225_3_alg».proof.Proof.Gen.Kernel.Skeleton
import proofs.«425662_j6262062318225_3_alg».proof.Proof.Gen.Kernel.Launch
import proofs.«425662_j6262062318225_3_alg».proof.Proof.Gen.Kernel.Points
import proofs.«425662_j6262062318225_3_alg».proof.Proof.Gen.Kernel.Frame
import proofs.«425662_j6262062318225_3_alg».proof.Proof.Gen.KernelIdeal
import proofs.«425662_j6262062318225_3_alg».proof.Proof.Gen.KernelIdeal.Skeleton
import proofs.«425662_j6262062318225_3_alg».proof.Proof.Gen.KernelIdeal.Launch
import proofs.«425662_j6262062318225_3_alg».proof.Proof.Gen.KernelIdeal.Points
import proofs.«425662_j6262062318225_3_alg».proof.Proof.Gen.KernelIdeal.Frame
import proofs.«425662_j6262062318225_3_alg».proof.Proof.Gen.ReferenceIdeal
import proofs.«425662_j6262062318225_3_alg».proof.Proof.Gen.Pre_finite_inputs
import proofs.«425662_j6262062318225_3_alg».proof.Proof.Gen.ReferenceIdeal.Run
import proofs.«425662_j6262062318225_3_alg».proof.Proof.Gen.ReferenceIdeal.Read
import proofs.«425662_j6262062318225_3_alg».proof.Proof.KernelValue
import proofs.«425662_j6262062318225_3_alg».proof.Proof.RefValue
import proofs.«425662_j6262062318225_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Cert.Words Cert.Spec

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-! ## The two programs build one nodal-value table -/

theorem vals_eq {F : FTy → Type} [FloatOps F] (x1 : Cert.KernelIdeal.S16777215x1.Idx → Elt F .f32) (x2 : Cert.KernelIdeal.S2x1.Idx → Elt F .f32)
    (x4 : IVec Cert.KernelIdeal.S16777215 32) (x5 : IVec Cert.KernelIdeal.S2 32) :
    Cert.KernelIdeal.Prefix.vals (F := F) x1 x2 x4 x5 = Cert.ReferenceIdeal.Read.val_main_v14 (F := F) x1 x2 x4 x5 := by
  unfold Cert.KernelIdeal.Prefix.vals Cert.ReferenceIdeal.Read.val_main_v14 Cert.ReferenceIdeal.Read.val_main_v7 Cert.ReferenceIdeal.Read.val_main_v13 Cert.ReferenceIdeal.Read.val_main_v12
    Cert.ReferenceIdeal.Read.val_main_v9 Cert.ReferenceIdeal.Read.val_main_v11 Cert.ReferenceIdeal.Read.val_main_v10 Cert.ReferenceIdeal.Read.val_main_v8 Cert.ReferenceIdeal.Read.val_main_c_1
    Cert.ReferenceIdeal.Read.val_main_c_2 Cert.ReferenceIdeal.Read.val_main_v6 Cert.ReferenceIdeal.Read.val_main_v5 Cert.ReferenceIdeal.Read.val_main_v2 Cert.ReferenceIdeal.Read.val_main_v4
    Cert.ReferenceIdeal.Read.val_main_v3 Cert.ReferenceIdeal.Read.val_main_v1 Cert.ReferenceIdeal.Read.val_main_c Cert.ReferenceIdeal.Read.val_main_c_0 Cert.ReferenceIdeal.Read.val_main_v0
    Cert.ReferenceIdeal.Read.val_main_cst
  rfl

/-! ## The kernel's run, at the specification -/

/-- Under the precondition every entry of the element table addresses a node. -/
theorem elems_inRange (m : (ℓ : Loc Cert.KernelIdeal.nD Cert.KernelIdeal.τ Cert.KernelIdeal.sig) → Buf (Elt Ideal) ℓ) (hpre : Cert.Pre_KernelIdeal m)
    (c : Dev Cert.KernelIdeal.nD) (i : Cert.KernelIdeal.S16777216x2.Idx) : InRange ((m ((c.tc : Thread Cert.KernelIdeal.nD Cert.KernelIdeal.τ).loc Cert.KernelIdeal.main_arg3) : IVec Cert.KernelIdeal.S16777216x2 32) i) :=
  Cert.PreRange.inRange_of_pre _ _ _ _ _ _ (hpre c) i

theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v32) = resU (F := Ideal) (m ((c.tc : Thread Cert.KernelIdeal.nD Cert.KernelIdeal.τ).loc Cert.KernelIdeal.main_arg0) : Cert.KernelIdeal.S16777217x1.Idx → Elt Ideal .f32) (Cert.KernelIdeal.Prefix.vals (F := Ideal) (m ((c.tc : Thread Cert.KernelIdeal.nD Cert.KernelIdeal.τ).loc Cert.KernelIdeal.main_arg1) : Cert.KernelIdeal.S16777215x1.Idx → Elt Ideal .f32) (m ((c.tc : Thread Cert.KernelIdeal.nD Cert.KernelIdeal.τ).loc Cert.KernelIdeal.main_arg2) : Cert.KernelIdeal.S2x1.Idx → Elt Ideal .f32) (m ((c.tc : Thread Cert.KernelIdeal.nD Cert.KernelIdeal.τ).loc Cert.KernelIdeal.main_arg4) : IVec Cert.KernelIdeal.S16777215 32) (m ((c.tc : Thread Cert.KernelIdeal.nD Cert.KernelIdeal.τ).loc Cert.KernelIdeal.main_arg5) : IVec Cert.KernelIdeal.S2 32)) (m ((c.tc : Thread Cert.KernelIdeal.nD Cert.KernelIdeal.τ).loc Cert.KernelIdeal.main_arg3) : IVec Cert.KernelIdeal.S16777216x2 32)
      ∧ r.2.mem ((c.tc : Thread Cert.KernelIdeal.nD Cert.KernelIdeal.τ).loc Cert.KernelIdeal.main_v33) = resX (F := Ideal) (m ((c.tc : Thread Cert.KernelIdeal.nD Cert.KernelIdeal.τ).loc Cert.KernelIdeal.main_arg0) : Cert.KernelIdeal.S16777217x1.Idx → Elt Ideal .f32) (m ((c.tc : Thread Cert.KernelIdeal.nD Cert.KernelIdeal.τ).loc Cert.KernelIdeal.main_arg3) : IVec Cert.KernelIdeal.S16777216x2 32)
      ∧ r.2.mem ((c.tc : Thread Cert.KernelIdeal.nD Cert.KernelIdeal.τ).loc Cert.KernelIdeal.main_v34) = resJ (F := Ideal) (m ((c.tc : Thread Cert.KernelIdeal.nD Cert.KernelIdeal.τ).loc Cert.KernelIdeal.main_arg0) : Cert.KernelIdeal.S16777217x1.Idx → Elt Ideal .f32) (m ((c.tc : Thread Cert.KernelIdeal.nD Cert.KernelIdeal.τ).loc Cert.KernelIdeal.main_arg3) : IVec Cert.KernelIdeal.S16777216x2 32)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run Cert.KernelIdeal.defs _ _).mono (fun _ h c =>
    ⟨(h c).1.trans (Cert.KernelIdeal.Value.resU_eq m c (elems_inRange m hpre c)),
      (h c).2.1.trans (Cert.KernelIdeal.Value.resX_eq m c (elems_inRange m hpre c)),
      (h c).2.2.1.trans (Cert.KernelIdeal.Value.resJ_eq m c (elems_inRange m hpre c)),
      (h c).2.2.2⟩)
    (Cert.KernelIdeal.Tail.run (F := Ideal) m ρ)

/-! ## The claim -/

/-- From memories that agree on the arguments, the kernel's three results and the reference's are the same arrays:
    the interpolated values, the midpoints and the weighted Jacobians of all elements. -/
theorem algebraic : Cert.algebraic_KernelIdeal_ReferenceIdeal := by
  intro m ρ m' ρ' hpre hagree
  refine ⟨_, _, _, kernel_run m ρ hpre, ?_⟩
  refine (θ_run Cert.ReferenceIdeal.defs _ _).mono (fun _ h c => ?_) (Cert.ReferenceIdeal.Value.run (F := Ideal) m' ρ')
  obtain ⟨g0, g1, g2, g3, g4, g5⟩ := hagree c
  refine ⟨(h c).1.trans ?_, (h c).2.1.trans ?_, (h c).2.2.1.trans ?_, (h c).2.2.2⟩
  · rw [Cert.ReferenceIdeal.Read.val_main_v83_eq, Cert.ReferenceIdeal.RefValue.resU_eq, g0, g1, g2, g3, g4, g5, ← vals_eq]
    funext i
    exact interpHost_ideal _ _ _ _
  · rw [Cert.ReferenceIdeal.Read.val_main_v84_eq, Cert.ReferenceIdeal.RefValue.resX_eq, g0, g3]
  · rw [Cert.ReferenceIdeal.Read.val_main_v54_eq, Cert.ReferenceIdeal.RefValue.resJ_eq, g0, g3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
